-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x50000x3 : Shape := ⟨3, ![32, 50000, 3]⟩
abbrev S50000x16 : Shape := ⟨2, ![50000, 16]⟩
abbrev S50000 : Shape := ⟨1, ![50000]⟩
abbrev S_ : Shape := ⟨0, ![]⟩

class Facts : Prop where
  bcast_S_S32x50000x3 : S_.BroadcastsInDim S32x50000x3 (![] : Fin 0 → Fin S32x50000x3.rank)
  reducesTo_S32x50000x3_S_d0_1_2 : S32x50000x3.ReducesTo [0, 1, 2] S_
  h_S_ : 0 < S_.numel
  bcast_S_S50000x16 : S_.BroadcastsInDim S50000x16 (![] : Fin 0 → Fin S50000x16.rank)
  reducesTo_S50000x16_S_d0_1 : S50000x16.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32x50000x3 .f32) (main_arg1 : FVec F S32x50000x3 .f32) (main_arg2 : IVec S50000x16 32) (main_arg3 : IVec S50000 32) : IVec S_ 1 :=
  let main_v0 : FVec F S32x50000x3 .f32 := Host.absf main_arg0
  let main_cst : FVec F S_ .f32 := constant S_ .f32 0x7F800000#32
  let main_v1 : FVec F S32x50000x3 .f32 := broadcastInDim S32x50000x3 ![] bcast_S_S32x50000x3 main_cst
  let main_v2 : IVec S32x50000x3 1 := cmpf .olt main_v0 main_v1
  let main_c : IVec S_ 1 := constantI S_ 1 1#1
  let main_v3 : IVec S_ 1 := (fun x v => Host.reduce IntOp.andi x v reducesTo_S32x50000x3_S_d0_1_2 h_S_) main_v2 main_c
  let main_v4 : FVec F S32x50000x3 .f32 := Host.absf main_arg1
  let main_cst_0 : FVec F S_ .f32 := constant S_ .f32 0x7F800000#32
  let main_v5 : FVec F S32x50000x3 .f32 := broadcastInDim S32x50000x3 ![] bcast_S_S32x50000x3 main_cst_0
  let main_v6 : IVec S32x50000x3 1 := cmpf .olt main_v4 main_v5
  let main_c_1 : IVec S_ 1 := constantI S_ 1 1#1
  let main_v7 : IVec S_ 1 := (fun x v => Host.reduce IntOp.andi x v reducesTo_S32x50000x3_S_d0_1_2 h_S_) main_v6 main_c_1
  let main_v8 : IVec S_ 1 := andi main_v3 main_v7
  let main_c_2 : IVec S_ 32 := constantI S_ 32 4294917295#32
  let main_v9 : IVec S50000x16 32 := broadcastInDim S50000x16 ![] bcast_S_S50000x16 main_c_2
  let main_v10 : IVec S50000x16 1 := cmpi .sge main_arg2 main_v9
  let main_c_3 : IVec S_ 1 := constantI S_ 1 1#1
  let main_v11 : IVec S_ 1 := (fun x v => Host.reduce IntOp.andi x v reducesTo_S50000x16_S_d0_1 h_S_) main_v10 main_c_3
  let main_v12 : IVec S_ 1 := andi main_v8 main_v11
  let main_c_4 : IVec S_ 32 := constantI S_ 32 50000#32
  let main_v13 : IVec S50000x16 32 := broadcastInDim S50000x16 ![] bcast_S_S50000x16 main_c_4
  let main_v14 : IVec S50000x16 1 := cmpi .sle main_arg2 main_v13
  let main_c_5 : IVec S_ 1 := constantI S_ 1 1#1
  let main_v15 : IVec S_ 1 := (fun x v => Host.reduce IntOp.andi x v reducesTo_S50000x16_S_d0_1 h_S_) main_v14 main_c_5
  fn_part1 (F := F) main_v12 main_v15
-- ==== Kernel.lean ====
abbrev S32x50000x3 : Shape := ⟨3, ![32, 50000, 3]⟩
abbrev S50000x16 : Shape := ⟨2, ![50000, 16]⟩
abbrev S50000 : Shape := ⟨1, ![50000]⟩
abbrev S50000x3x32 : Shape := ⟨3, ![50000, 3, 32]⟩
abbrev S50000x96 : Shape := ⟨2, ![50000, 96]⟩
abbrev S_ : Shape := ⟨0, ![]⟩
abbrev S1x96 : Shape := ⟨2, ![1, 96]⟩
abbrev S50001x96 : Shape := ⟨2, ![50001, 96]⟩
abbrev S50000x16x1 : Shape := ⟨3, ![50000, 16, 1]⟩
abbrev S1 : Shape := ⟨1, ![1]⟩
abbrev S1x1x1 : Shape := ⟨3, ![1, 1, 1]⟩
abbrev S50000x16x96 : Shape := ⟨3, ![50000, 16, 96]⟩
abbrev S50000x1 : Shape := ⟨2, ![50000, 1]⟩
abbrev S25x1x32 : Shape := ⟨3, ![25, 1, 32]⟩
abbrev S2000x16x96 : Shape := ⟨3, ![2000, 16, 96]⟩
abbrev S2000x96 : Shape := ⟨2, ![2000, 96]⟩
abbrev S2000x1 : Shape := ⟨2, ![2000, 1]⟩
abbrev S1x1x32 : Shape := ⟨3, ![1, 1, 32]⟩
abbrev S2000x32 : Shape := ⟨2, ![2000, 32]⟩
abbrev S32 : Shape := ⟨1, ![32]⟩
abbrev S1x32 : Shape := ⟨2, ![1, 32]⟩
abbrev S25x32 : Shape := ⟨2, ![25, 32]⟩

abbrev nBuf : Space → Nat
  | .hbm => 43
  | .vmem => 8
  | .smem => 0
  | _ => 0

abbrev bufTy : (tb : Table) → Fin (tcTables nBuf tb) → BufTy
  | .hbm, ⟨0, _⟩ => ⟨S32x50000x3, .f32⟩
  | .hbm, ⟨1, _⟩ => ⟨S32x50000x3, .f32⟩
  | .hbm, ⟨2, _⟩ => ⟨S50000x16, .i32⟩
  | .hbm, ⟨3, _⟩ => ⟨S50000, .i32⟩
  | .hbm, ⟨4, _⟩ => ⟨S32x50000x3, .f32⟩
  | .hbm, ⟨5, _⟩ => ⟨S50000x3x32, .f32⟩
  | .hbm, ⟨6, _⟩ => ⟨S50000x96, .f32⟩
  | .hbm, ⟨7, _⟩ => ⟨S_, .f32⟩
  | .hbm, ⟨8, _⟩ => ⟨S1x96, .f32⟩
  | .hbm, ⟨9, _⟩ => ⟨S50001x96, .f32⟩
  | .hbm, ⟨10, _⟩ => ⟨S_, .i32⟩
  | .hbm, ⟨11, _⟩ => ⟨S50000x16, .i32⟩
  | .hbm, ⟨12, _⟩ => ⟨S50000x16, .i1⟩
  | .hbm, ⟨13, _⟩ => ⟨S_, .i32⟩
  | .hbm, ⟨14, _⟩ => ⟨S50000x16, .i32⟩
  | .hbm, ⟨15, _⟩ => ⟨S50000x16, .i32⟩
  | .hbm, ⟨16, _⟩ => ⟨S50000x16, .i32⟩
  | .hbm, ⟨17, _⟩ => ⟨S50000x16x1, .i32⟩
  | .hbm, ⟨18, _⟩ => ⟨S1, .i32⟩
  | .hbm, ⟨19, _⟩ => ⟨S_, .i32⟩
  | .hbm, ⟨20, _⟩ => ⟨S50000x16x1, .i32⟩
  | .hbm, ⟨21, _⟩ => ⟨S50000x16x1, .i1⟩
  | .hbm, ⟨22, _⟩ => ⟨S1x1x1, .i32⟩
  | .hbm, ⟨23, _⟩ => ⟨S50000x16x1, .i32⟩
  | .hbm, ⟨24, _⟩ => ⟨S50000x16x1, .i1⟩
  | .hbm, ⟨25, _⟩ => ⟨S50000x16x1, .i1⟩
  | .hbm, ⟨26, _⟩ => ⟨S_, .i1⟩
  | .hbm, ⟨27, _⟩ => ⟨S50000x16, .i1⟩
  | .hbm, ⟨28, _⟩ => ⟨S50000x16x96, .f32⟩
  | .hbm, ⟨29, _⟩ => ⟨S50000x16x96, .i1⟩
  | .hbm, ⟨30, _⟩ => ⟨S_, .f32⟩
  | .hbm, ⟨31, _⟩ => ⟨S50000x16x96, .f32⟩
  | .hbm, ⟨32, _⟩ => ⟨S50000x16x96, .f32⟩
  | .hbm, ⟨33, _⟩ => ⟨S50000, .f32⟩
  | .hbm, ⟨34, _⟩ => ⟨S50000x1, .f32⟩
  | .hbm, ⟨35, _⟩ => ⟨S25x1x32, .f32⟩
  | .hbm, ⟨36, _⟩ => ⟨S25x32, .f32⟩
  | .hbm, ⟨37, _⟩ => ⟨S_, .f32⟩
  | .hbm, ⟨38, _⟩ => ⟨S32, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S2000x16x96, .f32⟩
  | .local _ .vmem, ⟨1, _⟩ => ⟨S2000x16x96, .f32⟩
  | .local _ .vmem, ⟨2, _⟩ => ⟨S2000x96, .f32⟩
  | .local _ .vmem, ⟨3, _⟩ => ⟨S2000x96, .f32⟩
  | .local _ .vmem, ⟨4, _⟩ => ⟨S2000x1, .f32⟩
  | .local _ .vmem, ⟨5, _⟩ => ⟨S2000x1, .f32⟩
  | .local _ .vmem, ⟨6, _⟩ => ⟨S1x1x32, .f32⟩
  | .local _ .vmem, ⟨7, _⟩ => ⟨S1x1x32, .f32⟩
  | _, _ => ⟨S32x50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_0 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_cst_2 : Ref sig .tc := ⟨.hbm, 41, rfl⟩
abbrev main_v12 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x16x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x50000x3_S50000x3x32_1_2_0 : S32x50000x3.Transposes [1, 2, 0] S50000x3x32
  shapeCasts_S50000x3x32_S50000x96 : S50000x3x32.ShapeCasts S50000x96
  bcast_S_S1x96 : S_.BroadcastsInDim S1x96 (![] : Fin 0 → Fin S1x96.rank)
  concatenates_S50000x96_S1x96_S50001x96_d0 : Shape.Concatenates [S50000x96, S1x96] S50001x96 0
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  bcast_S_S50000x16x1 : S_.BroadcastsInDim S50000x16x1 (![] : Fin 0 → Fin S50000x16x1.rank)
  bcast_S1_S1x1x1_2 : S1.BroadcastsInDim S1x1x1 (![2] : Fin 1 → Fin S1x1x1.rank)
  bcast_S1x1x1_S50000x16x1_0_1_2 : S1x1x1.BroadcastsInDim S50000x16x1 (![0, 1, 2] : Fin 3 → Fin S50000x16x1.rank)
  reducesTo_S50000x16x1_S50000x16_d2 : S50000x16x1.ReducesTo [2] S50000x16
  h_S_ : 0 < S_.numel
  bcast_S50000x16_S50000x16x96_0_1 : S50000x16.BroadcastsInDim S50000x16x96 (![0, 1] : Fin 2 → Fin S50000x16x96.rank)
  bcast_S_S50000x16x96 : S_.BroadcastsInDim S50000x16x96 (![] : Fin 0 → Fin S50000x16x96.rank)
  shapeCasts_S50000_S50000x1 : S50000.ShapeCasts S50000x1
  inb_S2000x16x96_S2000x16x96_0_0_0 : ∀ a, (![0, 0, 0] : Fin 3 → Nat) a + S2000x16x96.size a ≤ S2000x16x96.size a
  h_S2000x16x96 : 0 < S2000x16x96.numel
  shapeCasts_S2000x16x96_S2000x16x96 : S2000x16x96.ShapeCasts S2000x16x96
  reduces_S2000x16x96_S2000x96 : S2000x16x96.Reduces [1] S2000x96
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x96 : S2000x1.Broadcasts S2000x96
  slices_S2000x96_o0_0_S2000x32 : S2000x96.Slices ![0, 0] S2000x32
  slices_S2000x96_o0_32_S2000x32 : S2000x96.Slices ![0, 32] S2000x32
  slices_S2000x96_o0_64_S2000x32 : S2000x96.Slices ![0, 64] S2000x32
  reduces_S2000x32_S32 : S2000x32.Reduces [0] S32
  shapeCasts_S32_S1x32 : S32.ShapeCasts S1x32
  shapeCasts_S1x32_S1x1x32 : S1x32.ShapeCasts S1x1x32
  inb_S1x1x32_S1x1x32_0_0_0 : ∀ a, (![0, 0, 0] : Fin 3 → Nat) a + S1x1x32.size a ≤ S1x1x32.size a
  h_S1x1x32 : 0 < S1x1x32.numel
  shapeCasts_S25x1x32_S25x32 : S25x1x32.ShapeCasts S25x32
  reducesTo_S25x32_S32_d0 : S25x32.ReducesTo [0] S32
  reducesTo_S32_S_d0 : S32.ReducesTo [0] S_
  gather_S50001x96_S50000x16x1_S50000x16x96_2_0_n_n_0_2_196_wf : GatherDims.WF S50001x96 S50000x16x1 S50000x16x96 [2] [0] [] [0] [] 2 ![1, 96]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16x96.size a ≤ S50000x16x96.size a
  hwx0_0 : ∀ i : grid0.Coords, EltTy.bits .f32 = 32 ∨ (Rect.block (s := S50000x16x96) S2000x16x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32.size a ≤ S25x1x32.size a
  hwx0_3 : ∀ i : grid0.Coords, EltTy.bits .f32 = 32 ∨ (Rect.block (s := S25x1x32) S1x1x32.size (cc0_transform_3 i) (hinb0_3 i)).WholeWords (EltTy.packing .f32)

variable [Facts₀]

def gather_S50001x96_S50000x16x1_S50000x16x96_2_0_n_n_0_2_196 : GatherDims S50001x96 S50000x16x1 S50000x16x96 where
  offsetDims := [2]
  collapsedSliceDims := [0]
  operandBatchingDims := []
  startIndicesBatchingDims := []
  startIndexMap := [0]
  indexVectorDim := 2
  sliceSizes := ![1, 96]
  wf := gather_S50001x96_S50000x16x1_S50000x16x96_2_0_n_n_0_2_196_wf

abbrev win0_0 : Pipeline.Window sig grid0 :=
  Pipeline.Window.ofSpec (Memref.whole main_v5) S2000x16x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x50000x3 : Shape := ⟨3, ![32, 50000, 3]⟩
abbrev S50000x16 : Shape := ⟨2, ![50000, 16]⟩
abbrev S50000 : Shape := ⟨1, ![50000]⟩
abbrev S_ : Shape := ⟨0, ![]⟩
abbrev S32x1x3 : Shape := ⟨3, ![32, 1, 3]⟩
abbrev S32x50001x3 : Shape := ⟨3, ![32, 50001, 3]⟩
abbrev S1x50000x1 : Shape := ⟨3, ![1, 50000, 1]⟩
abbrev S50000x16x1 : Shape := ⟨3, ![50000, 16, 1]⟩
abbrev S32x50000x16x3 : Shape := ⟨4, ![32, 50000, 16, 3]⟩
abbrev S32x50000 : Shape := ⟨2, ![32, 50000]⟩
abbrev S32 : Shape := ⟨1, ![32]⟩

abbrev nBuf : Space → Nat
  | .hbm => 49
  | .vmem => 0
  | .smem => 0
  | _ => 0

abbrev bufTy : (tb : Table) → Fin (tcTables nBuf tb) → BufTy
  | .hbm, ⟨0, _⟩ => ⟨S32x50000x3, .f32⟩
  | .hbm, ⟨1, _⟩ => ⟨S32x50000x3, .f32⟩
  | .hbm, ⟨2, _⟩ => ⟨S50000x16, .i32⟩
  | .hbm, ⟨3, _⟩ => ⟨S50000, .i32⟩
  | .hbm, ⟨4, _⟩ => ⟨S_, .f32⟩
  | .hbm, ⟨5, _⟩ => ⟨S32x1x3, .f32⟩
  | .hbm, ⟨6, _⟩ => ⟨S32x50001x3, .f32⟩
  | .hbm, ⟨7, _⟩ => ⟨S32x50001x3, .f32⟩
  | .hbm, ⟨8, _⟩ => ⟨S50000, .f32⟩
  | .hbm, ⟨9, _⟩ => ⟨S1x50000x1, .f32⟩
  | .hbm, ⟨10, _⟩ => ⟨S_, .i32⟩
  | .hbm, ⟨11, _⟩ => ⟨S50000x16, .i32⟩
  | .hbm, ⟨12, _⟩ => ⟨S50000x16, .i1⟩
  | .hbm, ⟨13, _⟩ => ⟨S_, .i32⟩
  | .hbm, ⟨14, _⟩ => ⟨S50000x16, .i32⟩
  | .hbm, ⟨15, _⟩ => ⟨S50000x16, .i32⟩
  | .hbm, ⟨16, _⟩ => ⟨S50000x16, .i32⟩
  | .hbm, ⟨17, _⟩ => ⟨S50000x16x1, .i32⟩
  | .hbm, ⟨18, _⟩ => ⟨S32x50000x16x3, .f32⟩
  | .hbm, ⟨19, _⟩ => ⟨S_, .f32⟩
  | .hbm, ⟨20, _⟩ => ⟨S32x50000x3, .f32⟩
  | .hbm, ⟨21, _⟩ => ⟨S32x50000x3, .f32⟩
  | .hbm, ⟨22, _⟩ => ⟨S32x50000x3, .f32⟩
  | .hbm, ⟨23, _⟩ => ⟨S32x50000x3, .f32⟩
  | .hbm, ⟨24, _⟩ => ⟨S_, .i32⟩
  | .hbm, ⟨25, _⟩ => ⟨S50000x16, .i32⟩
  | .hbm, ⟨26, _⟩ => ⟨S50000x16, .i1⟩
  | .hbm, ⟨27, _⟩ => ⟨S_, .i32⟩
  | .hbm, ⟨28, _⟩ => ⟨S50000x16, .i32⟩
  | .hbm, ⟨29, _⟩ => ⟨S50000x16, .i32⟩
  | .hbm, ⟨30, _⟩ => ⟨S50000x16, .i32⟩
  | .hbm, ⟨31, _⟩ => ⟨S50000x16x1, .i32⟩
  | .hbm, ⟨32, _⟩ => ⟨S32x50000x16x3, .f32⟩
  | .hbm, ⟨33, _⟩ => ⟨S_, .f32⟩
  | .hbm, ⟨34, _⟩ => ⟨S32x50000x3, .f32⟩
  | .hbm, ⟨35, _⟩ => ⟨S32x50000x3, .f32⟩
  | .hbm, ⟨36, _⟩ => ⟨S32x50000x3, .f32⟩
  | .hbm, ⟨37, _⟩ => ⟨S32x50000x3, .f32⟩
  | .hbm, ⟨38, _⟩ => ⟨S32x50000x3, .f32⟩
  | .hbm, ⟨39, _⟩ => ⟨S32x50000x3, .f32⟩
  | .hbm, ⟨40, _⟩ => ⟨S_, .f32⟩
  | .hbm, ⟨41, _⟩ => ⟨S32x50000, .f32⟩
  | .hbm, ⟨42, _⟩ => ⟨S32x50000, .f32⟩
  | .hbm, ⟨43, _⟩ => ⟨S_, .f32⟩
  | .hbm, ⟨44, _⟩ => ⟨S32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S32x50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  bcast_S_S32x1x3 : S_.BroadcastsInDim S32x1x3 (![] : Fin 0 → Fin S32x1x3.rank)
  concatenates_S32x50000x3_S32x1x3_S32x50001x3_d1 : Shape.Concatenates [S32x50000x3, S32x1x3] S32x50001x3 1
  bcast_S50000_S1x50000x1_1 : S50000.BroadcastsInDim S1x50000x1 (![1] : Fin 1 → Fin S1x50000x1.rank)
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S32x50000x16x3_S32x50000x3_d2 : S32x50000x16x3.ReducesTo [2] S32x50000x3
  h_S_ : 0 < S_.numel
  bcast_S1x50000x1_S32x50000x3_0_1_2 : S1x50000x1.BroadcastsInDim S32x50000x3 (![0, 1, 2] : Fin 3 → Fin S32x50000x3.rank)
  reducesTo_S32x50000x3_S32x50000_d2 : S32x50000x3.ReducesTo [2] S32x50000
  reducesTo_S32x50000_S32_d1 : S32x50000.ReducesTo [1] S32
  reducesTo_S32_S_d0 : S32.ReducesTo [0] S_
  gather_S32x50001x3_S50000x16x1_S32x50000x16x3_03_1_n_n_1_2_3213_wf : GatherDims.WF S32x50001x3 S50000x16x1 S32x50000x16x3 [0, 3] [1] [] [1] [] 2 ![32, 1, 3]

variable [Facts₀]

def gather_S32x50001x3_S50000x16x1_S32x50000x16x3_03_1_n_n_1_2_3213 : GatherDims S32x50001x3 S50000x16x1 S32x50000x16x3 where
  offsetDims := [0, 3]
  collapsedSliceDims := [1]
  operandBatchingDims := []
  startIndicesBatchingDims := []
  startIndexMap := [1]
  indexVectorDim := 2
  sliceSizes := ![32, 1, 3]
  wf := gather_S32x50001x3_S50000x16x1_S32x50000x16x3_03_1_n_n_1_2_3213_wf

class Facts : Prop extends Facts₀ where

variable [Facts]
-- ==== Proof.Spec.lean ====
/-
  The loss both programs compute, written once over coordinates.

  A batch of point clouds is `X b n c` (batch `b` of 32, point `n` of 50000, coordinate `c` of 3). A point's
  neighbours are 16 words `nb n d`; a word is read signed, a negative one shifted up by 50001, and the row it names in
  the table of 50001 rows (the 50000 points and one row of zeros) is clamped into the table (`row`). The Laplacian of
  `X` at a point is `X · degree − Σ_d (padded X)[row (nb n d)]`.

  `lossRef`: the two Laplacians taken apart and subtracted, squared, summed over the three coordinates, rooted,
  summed over points and batches, divided by 32.
  `lossKer`: the Laplacian of the DIFFERENCE of the clouds (it is linear), the three squares added left to right, the
  points summed tile by tile (25 tiles of 2000).
  That the two agree on finite clouds is `Proof/Algebra.lean`.
-/
import Idealize.ShloMosaic.PureOps.Ideal
import Idealize.ShloMosaic.Lib.ValueIdx

noncomputable section

open scoped BigOperators

namespace Cert.Laplace

open Idealize.ShloMosaic Idealize.ShloMosaic.ValueIdx

/-- A batch of point clouds by coordinates. -/
abbrev Pts := Fin 32 → Fin 50000 → Fin 3 → EReal
/-- The neighbour words of every point. -/
abbrev Nbr := Fin 50000 → Fin 16 → BitVec 32
/-- The degree of every point, as a number. -/
abbrev Deg := Fin 50000 → EReal

/-- A neighbour word with a negative value shifted up by the table's length. -/
def wrap (w : BitVec 32) : BitVec 32 := Scalar.select (IntOp.cmpi .slt w 0#32) (IntOp.addi w 50001#32) w

/-- The table row a neighbour word names: the shifted word read signed and clamped into `[0, 50000]`. -/
def row (w : BitVec 32) : Fin 50001 := ⟨min (wrap w).toInt.toNat 50000, by omega⟩

/-- A neighbour word that indexes the table of 50001 rows, counting from either end. -/
def InRange (w : BitVec 32) : Prop := -50001 ≤ w.toInt ∧ w.toInt ≤ 50000

/-- The cloud with one more row, of zeros. -/
def pad (X : Pts) (b : Fin 32) (r : Fin 50001) (c : Fin 3) : EReal :=
  if h : r.val < 50000 then X b ⟨r.val, h⟩ c else 0

/-- The Laplacian of one cloud. -/
def lapRef (X : Pts) (nb : Nbr) (D : Deg) (b : Fin 32) (n : Fin 50000) (c : Fin 3) : EReal :=
  X b n c * D n - ∑ d : Fin 16, pad X b (row (nb n d)) c

/-- The distance between the two Laplacians at a point. -/
def distRef (P G : Pts) (nb : Nbr) (D : Deg) (b : Fin 32) (n : Fin 50000) : EReal :=
  Ideal.sqrt (∑ c : Fin 3, (lapRef P nb D b n c - lapRef G nb D b n c) * (lapRef P nb D b n c - lapRef G nb D b n c))

/-- The loss as the reference takes it. -/
def lossRef (P G : Pts) (nb : Nbr) (D : Deg) : EReal :=
  Ideal.div (∑ b : Fin 32, ∑ n : Fin 50000, distRef P G nb D b n) (Ideal.ofBits .f32 0x42000000#32)

/-- The difference of two clouds. -/
def diffK (P G : Pts) : Pts := fun b n c => P b n c - G b n c

/-- The Laplacian of the difference of the clouds. -/
def lapKer (P G : Pts) (nb : Nbr) (D : Deg) (b : Fin 32) (n : Fin 50000) (c : Fin 3) : EReal :=
  diffK P G b n c * D n - ∑ d : Fin 16, pad (diffK P G) b (row (nb n d)) c

/-- Its length at a point, the three squares added left to right. -/
def distKer (P G : Pts) (nb : Nbr) (D : Deg) (b : Fin 32) (n : Fin 50000) : EReal :=
  Ideal.sqrt ((lapKer P G nb D b n 0 * lapKer P G nb D b n 0 + lapKer P G nb D b n 1 * lapKer P G nb D b n 1)
    + lapKer P G nb D b n 2 * lapKer P G nb D b n 2)

/-- Point `r` of tile `t`. -/
def pt (t : Fin 25) (r : Fin 2000) : Fin 50000 := ⟨2000 * t.val + r.val, by omega⟩

/-- The loss as the kernel takes it: tile by tile. -/
def lossKer (P G : Pts) (nb : Nbr) (D : Deg) : EReal :=
  Ideal.div (∑ b : Fin 32, ∑ t : Fin 25, ∑ r : Fin 2000, distKer P G nb D b (pt t r)) (Ideal.ofBits .f32 0x42000000#32)

/-- A lane of the coordinate-major row: coordinate `c`, batch `b`. -/
def lane (c : Fin 3) (b : Fin 32) : Fin 96 := ⟨c.val * 32 + b.val, by omega⟩

/-- An array of points by coordinates. -/
def pts (X : (⟨3, ![32, 50000, 3]⟩ : Shape).Idx → EReal) : Pts := fun b n c => X (ix3 b n c)
/-- The neighbour array by coordinates. -/
def nbr (N : (⟨2, ![50000, 16]⟩ : Shape).Idx → BitVec 32) : Nbr := fun n d => N (ix2 n d)
/-- The degree words as numbers. -/
def degE (dg : (⟨1, ![50000]⟩ : Shape).Idx → BitVec 32) : Deg := fun n => (((dg (ix1 n)).toInt : ℝ) : EReal)

end Cert.Laplace

end
-- ==== Proof.Algebra.lean ====
/-
  On finite clouds the kernel's loss is the reference's.

  Both clouds are read as real-valued clouds; on those every sum, product and difference in the two Laplacians is a
  sum, product and difference of real numbers, the Laplacian is linear, and so the Laplacian of the difference is
  the difference of the Laplacians. The three squares are added in the same order on both sides. The tiles of 2000
  points partition the 50000 points, so the sum tile by tile is the sum over all points.
-/
import proofs.«418512_j23167053595271_2_alg».proof.Proof.Spec
import Mathlib.Data.EReal.Operations
import Mathlib.Algebra.BigOperators.Fin
import Mathlib.Logic.Equiv.Fin.Basic
import Mathlib.Tactic.Ring

noncomputable section

open scoped BigOperators

namespace Cert.Laplace

open Idealize.ShloMosaic

/-- A batch of real-valued point clouds. -/
abbrev RPts := Fin 32 → Fin 50000 → Fin 3 → ℝ

/-- A real-valued cloud read in the extended reals. -/
def up (x : RPts) : Pts := fun b n c => (x b n c : EReal)

/-- The real cloud with one more row, of zeros. -/
def padR (x : RPts) (b : Fin 32) (r : Fin 50001) (c : Fin 3) : ℝ :=
  if h : r.val < 50000 then x b ⟨r.val, h⟩ c else 0

/-- The Laplacian of a real cloud, in the reals. -/
def lapR (x : RPts) (nb : Nbr) (D : Fin 50000 → ℝ) (b : Fin 32) (n : Fin 50000) (c : Fin 3) : ℝ :=
  x b n c * D n - ∑ d : Fin 16, padR x b (row (nb n d)) c

/-- The coercion of the reals into the extended reals commutes with finite sums. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The padded real cloud, read in the extended reals, is the padded cloud. -/
theorem pad_up (x : RPts) (b : Fin 32) (r : Fin 50001) (c : Fin 3) :
    pad (up x) b r c = (padR x b r c : EReal) := by
  unfold pad padR up
  split_ifs <;> simp

/-- The Laplacian of a real cloud with real degrees is a real number. -/
theorem lapRef_up (x : RPts) (nb : Nbr) (D : Fin 50000 → ℝ) (b : Fin 32) (n : Fin 50000) (c : Fin 3) :
    lapRef (up x) nb (fun n => (D n : EReal)) b n c = (lapR x nb D b n c : EReal) := by
  simp only [lapRef, lapR, pad_up, EReal.coe_sub, EReal.coe_mul, coe_finsum]
  rfl

/-- The difference of two real clouds is a real cloud. -/
theorem diffK_up (p g : RPts) : diffK (up p) (up g) = up (fun b n c => p b n c - g b n c) := rfl

/-- The real Laplacian is linear: of a difference it is the difference. -/
theorem lapR_sub (p g : RPts) (nb : Nbr) (D : Fin 50000 → ℝ) (b : Fin 32) (n : Fin 50000) (c : Fin 3) :
    lapR (fun b n c => p b n c - g b n c) nb D b n c = lapR p nb D b n c - lapR g nb D b n c := by
  have hpad : ∀ r : Fin 50001,
      padR (fun b n c => p b n c - g b n c) b r c = padR p b r c - padR g b r c := by
    intro r
    unfold padR
    split_ifs <;> simp
  simp only [lapR, hpad, Finset.sum_sub_distrib]
  ring

/-- On real clouds the Laplacian of the difference is the difference of the Laplacians. -/
theorem lapKer_up (p g : RPts) (nb : Nbr) (D : Fin 50000 → ℝ) (b : Fin 32) (n : Fin 50000) (c : Fin 3) :
    lapKer (up p) (up g) nb (fun n => (D n : EReal)) b n c
      = lapRef (up p) nb (fun n => (D n : EReal)) b n c - lapRef (up g) nb (fun n => (D n : EReal)) b n c := by
  have h : lapKer (up p) (up g) nb (fun n => (D n : EReal)) b n c
      = lapRef (diffK (up p) (up g)) nb (fun n => (D n : EReal)) b n c := rfl
  rw [h, diffK_up, lapRef_up, lapRef_up, lapRef_up, lapR_sub, EReal.coe_sub]

/-- On real clouds the two distances at a point agree. -/
theorem distKer_up (p g : RPts) (nb : Nbr) (D : Fin 50000 → ℝ) (b : Fin 32) (n : Fin 50000) :
    distKer (up p) (up g) nb (fun n => (D n : EReal)) b n
      = distRef (up p) (up g) nb (fun n => (D n : EReal)) b n := by
  unfold distKer distRef
  rw [Fin.sum_univ_three, lapKer_up, lapKer_up, lapKer_up]

/-- The 25 tiles of 2000 points are all 50000 points: a sum tile by tile is the sum over the points. -/
theorem sum_tiles {M : Type*} [AddCommMonoid M] (f : Fin 50000 → M) :
    ∑ t : Fin 25, ∑ r : Fin 2000, f (pt t r) = ∑ n : Fin 50000, f n := by
  have e : ∀ x : Fin 25 × Fin 2000, pt x.1 x.2 = (finProdFinEquiv : Fin 25 × Fin 2000 ≃ Fin 50000) x := by
    intro x
    apply Fin.ext
    simp [pt, finProdFinEquiv]
    omega
  calc ∑ t : Fin 25, ∑ r : Fin 2000, f (pt t r)
      = ∑ x : Fin 25 × Fin 2000, f (pt x.1 x.2) := (Fintype.sum_prod_type' (fun t r => f (pt t r))).symm
    _ = ∑ x : Fin 25 × Fin 2000, f ((finProdFinEquiv : Fin 25 × Fin 2000 ≃ Fin 50000) x) := by
        simp only [e]
    _ = ∑ n : Fin 50000, f n := Equiv.sum_comp (finProdFinEquiv : Fin 25 × Fin 2000 ≃ Fin 50000) f

/-- The two ways of taking the loss agree when every coordinate of both clouds is a real number and the degrees are
    real numbers. -/
theorem lossKer_eq_lossRef (P G : Pts) (nb : Nbr) (D : Fin 50000 → ℝ)
    (hP : ∀ b n c, ∃ x : ℝ, P b n c = (x : EReal)) (hG : ∀ b n c, ∃ x : ℝ, G b n c = (x : EReal)) :
    lossKer P G nb (fun n => (D n : EReal)) = lossRef P G nb (fun n => (D n : EReal)) := by
  choose p hp using hP
  choose g hg using hG
  have hPp : P = up p := by funext b n c; exact hp b n c
  have hGg : G = up g := by funext b n c; exact hg b n c
  subst hPp hGg
  unfold lossKer lossRef
  refine congrArg (fun s => Ideal.div s (Ideal.ofBits .f32 0x42000000#32)) ?_
  refine Finset.sum_congr rfl (fun b _ => ?_)
  rw [sum_tiles (fun n => distKer (up p) (up g) nb (fun n => (D n : EReal)) b n)]
  exact Finset.sum_congr rfl (fun n _ => distKer_up p g nb D b n)

end Cert.Laplace

end
-- ==== Proof.PreDecode.lean ====
/-
  What the precondition says of the inputs: both clouds finite, every neighbour word an index of the padded table.
-/
import proofs.«418512_j23167053595271_2_alg».proof.Pre_finite_inputs
import proofs.«418512_j23167053595271_2_alg».proof.Proof.Gen.Pre_finite_inputs
import proofs.«418512_j23167053595271_2_alg».proof.Proof.Spec
import Idealize.ShloMosaic.Lib.ReduceAll
import Idealize.ShloMosaic.Lib.StableHlo.Predicate

noncomputable section

namespace Cert.Laplace

open Idealize.ShloMosaic Idealize.ShloMosaic.ValueIdx

/-- The shape of no axes has one index. -/
instance subsingleton_scalar_idx : Subsingleton Cert.Pre_finite_inputs.S_.Idx :=
  ⟨fun a b => funext fun d => d.elim0⟩

/-- An extended real whose absolute value `max x (-x)` lies strictly below `+∞` (the word `0x7F800000`) is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- A word that compares signed at least the word of `-50001` and at most the word of `50000` is in range. -/
theorem inRange_of_cmpi (w : BitVec 32) (hlo : IntOp.cmpi .sge w 4294917295#32 = 1#1)
    (hhi : IntOp.cmpi .sle w 50000#32 = 1#1) : InRange w := by
  unfold IntOp.cmpi at hlo hhi
  rw [StableHlo.Predicate.ofBool_eq_one_iff] at hlo hhi
  simp only [BitVec.sle, decide_eq_true_eq] at hlo hhi
  have e1 : (4294917295#32 : BitVec 32).toInt = -50001 := by decide
  have e2 : (50000#32 : BitVec 32).toInt = 50000 := by decide
  rw [e1] at hlo
  rw [e2] at hhi
  exact ⟨hlo, hhi⟩

/-- The printed precondition, all ones, read back: every entry of both clouds is a real number and every neighbour
    word lies in `[-50001, 50000]`. -/
theorem pre_decode (P G : FVec Ideal Cert.Pre_finite_inputs.S32x50000x3 .f32) (nb : IVec Cert.Pre_finite_inputs.S50000x16 32)
    (dg : IVec Cert.Pre_finite_inputs.S50000 32)
    (h : Cert.Pre_finite_inputs.fn (F := Ideal) P G nb dg = fun _ => 1#1) :
    (∀ i, ∃ x : ℝ, P i = (x : EReal)) ∧ (∀ i, ∃ x : ℝ, G i = (x : EReal)) ∧ (∀ i, InRange (nb i)) := by
  have e := congrFun h ValueIdx.ix0
  dsimp only [Cert.Pre_finite_inputs.fn, Cert.Pre_finite_inputs.fn_part1] at e
  simp only [andi, IntOp.andi_eq_one] at e
  obtain ⟨⟨⟨hP, hG⟩, hlo⟩, hhi⟩ := e
  refine ⟨fun i => ?_, fun i => ?_, fun i => ?_⟩
  · exact real_of_abs_lt_inf (P i) (Host.reduce_andi_all _ _ _ _ _ hP i)
  · exact real_of_abs_lt_inf (G i) (Host.reduce_andi_all _ _ _ _ _ hG i)
  · exact inRange_of_cmpi (nb i) (Host.reduce_andi_all _ _ _ _ _ hlo i) (Host.reduce_andi_all _ _ _ _ _ hhi i)

end Cert.Laplace

end
-- ==== Proof.RefValue.lean ====
/-
  The reference's result, read one operation at a time, is `lossRef` of its arguments.

  Each cloud with a row of zeros appended is `pad`; each gather reads that table at the row the neighbour word names
  (`row`: the word read signed, a negative one shifted up by 50001, clamped into the table); the sum over the sixteen
  neighbours taken from the cloud times the degree is `lapRef`; the two Laplacians subtracted, squared, summed over the
  coordinates and rooted are `distRef`; summed over points and batches and divided by 32 they are `lossRef`.
-/
import proofs.«418512_j23167053595271_2_alg».proof.Proof.Gen.ReferenceIdeal.Read
import proofs.«418512_j23167053595271_2_alg».proof.Proof.Spec

noncomputable section

open scoped BigOperators

namespace Cert.Laplace

open Idealize.ShloMosaic Idealize.ShloMosaic.ValueIdx Cert.ReferenceIdeal Cert.ReferenceIdeal.Read

namespace Ref

/-! ## The cloud with a row of zeros appended -/

/-- A cloud with one row appended on the point axis reads the cloud at a row below 50000 and the appended row, all
    zeros, at row 50000. -/
theorem cat_at (X : S32x50000x3.Idx → EReal) (Z : S32x1x3.Idx → EReal) (hZ : ∀ j, Z j = 0)
    (h : Shape.Concatenates [S32x50000x3, S32x1x3] S32x50001x3 1) (b : Fin 32) (r : Fin 50001) (c : Fin 3) :
    concatenate S32x50001x3 1 [⟨S32x50000x3, X⟩, ⟨S32x1x3, Z⟩] h (ix3 b r c)
      = if hr : r.val < 50000 then X (ix3 b ⟨r.val, hr⟩ c) else 0 := by
  split
  · next hr =>
    exact concatenate_pair_apply_left 1 X Z h _ rfl _ (fun a => by
      match a with
      | ⟨0, _⟩ => rfl
      | ⟨1, _⟩ => rfl
      | ⟨2, _⟩ => rfl)
  · next hr =>
    have hlt := r.isLt
    rw [concatenate_pair_apply_right 1 X Z h _ rfl rfl (ix3 b 0 c) (fun a ha => by
      match a with
      | ⟨0, _⟩ => rfl
      | ⟨1, _⟩ => exact absurd rfl ha
      | ⟨2, _⟩ => rfl) (by show 0 + 50000 = r.val; omega)]
    exact hZ _

/-- The appended row is zero. -/
theorem zrow_at (j : S32x1x3.Idx) : val_main_v0 (F := Ideal) j = 0 := by
  rw [val_main_v0_apply, val_main_cst_apply]
  exact Ideal.ofBits_zero_f32

/-- The first cloud with the row of zeros appended is the padded cloud. -/
theorem padP_at (X : FVec Ideal S32x50000x3 .f32) (b : Fin 32) (r : Fin 50001) (c : Fin 3) :
    val_main_v1 (F := Ideal) X (ix3 b r c) = pad (pts X) b r c := by
  unfold val_main_v1
  exact cat_at X _ zrow_at _ b r c

/-- The second cloud with the row of zeros appended is the padded cloud. -/
theorem padG_at (X : FVec Ideal S32x50000x3 .f32) (b : Fin 32) (r : Fin 50001) (c : Fin 3) :
    val_main_v2 (F := Ideal) X (ix3 b r c) = pad (pts X) b r c := by
  unfold val_main_v2
  exact cat_at X _ zrow_at _ b r c

/-! ## The gather of the table's rows -/

/-- The gather's dimension numbers: axes 0 and 3 of the result are the table's axes 0 and 2 whole, the table's axis 1
    is collapsed and indexed by the one component of the start index. -/
abbrev gd : GatherDims S32x50001x3 S50000x16x1 S32x50000x16x3 := gather_S32x50001x3_S50000x16x1_S32x50000x16x3_03_1_n_n_1_2_3213

/-- The gather at `(b, n, d, c)` reads the table at batch `b`, coordinate `c` and the row its start index `(n, d)`
    names: the start index read signed and clamped into the table's 50001 rows. -/
theorem gather_at {α : Type} (x : S32x50001x3.Idx → α) (idx : IVec S50000x16x1 32) (b : Fin 32) (n : Fin 50000) (d : Fin 16)
    (c : Fin 3) (w : BitVec 32) (hw : idx (ix3 n d 0) = wrap w) :
    Host.gather gd x idx (ix4 b n d c) = x (ix3 b (row w) c) := by
  unfold Host.gather
  congr 1
  funext a
  refine Fin.ext ?_
  match a with
  | ⟨0, _⟩ =>
    show gd.start (ix4 b n d c) idx 0 + gd.batchCoord (ix4 b n d c) 0 + gd.offCoord (ix4 b n d c) 0 = b.val
    have h0 : gd.start (ix4 b n d c) idx 0 = 0 := rfl
    have h1 : gd.batchCoord (ix4 b n d c) 0 = 0 := rfl
    have h2 : gd.offCoord (ix4 b n d c) 0 = b.val := rfl
    rw [h0, h1, h2, Nat.zero_add]
  | ⟨1, _⟩ =>
    show gd.start (ix4 b n d c) idx 1 + gd.batchCoord (ix4 b n d c) 1 + gd.offCoord (ix4 b n d c) 1 = (row w).val
    have h1 : gd.batchCoord (ix4 b n d c) 1 = 0 := rfl
    have h2 : gd.offCoord (ix4 b n d c) 1 = 0 := rfl
    have h0 : gd.start (ix4 b n d c) idx 1 = min (idx (ix3 n d 0)).toInt.toNat 50000 := by
      unfold GatherDims.start
      rw [dif_pos (show (1 : Fin 3) ∈ gd.startIndexMap from List.mem_singleton.mpr rfl)]
      have hsi : gd.siIdx (ix4 b n d c) ⟨List.idxOf (1 : Fin 3) gd.startIndexMap,
          List.idxOf_lt_length_iff.2 (List.mem_singleton.mpr rfl)⟩ = ix3 n d 0 := by
        funext e; refine Fin.ext ?_
        match e with
        | ⟨0, _⟩ => rfl
        | ⟨1, _⟩ => rfl
        | ⟨2, _⟩ => rfl
      rw [hsi]
      rfl
    rw [h0, h1, h2, hw]
    rfl
  | ⟨2, _⟩ =>
    show gd.start (ix4 b n d c) idx 2 + gd.batchCoord (ix4 b n d c) 2 + gd.offCoord (ix4 b n d c) 2 = c.val
    have h0 : gd.start (ix4 b n d c) idx 2 = 0 := rfl
    have h1 : gd.batchCoord (ix4 b n d c) 2 = 0 := rfl
    have h2 : gd.offCoord (ix4 b n d c) 2 = c.val := rfl
    rw [h0, h1, h2, Nat.zero_add]

/-- The start index of the second cloud's gather at `(n, d)` is the neighbour word, a negative one shifted up. -/
theorem wrapG_at (nb : IVec S50000x16 32) (n : Fin 50000) (d : Fin 16) :
    val_main_v10 (F := Ideal) nb (ix3 n d 0) = wrap (nbr nb n d) := by
  have e : idx_main_v10 (ix3 n d (0 : Fin 1)) = ix2 n d :=
    funext fun a => Fin.ext (by match a with | ⟨0, _⟩ => rfl | ⟨1, _⟩ => rfl)
  rw [val_main_v10_apply, e, val_main_v9_apply, val_main_v6_apply, val_main_v8_apply, val_main_v5_apply, val_main_v7_apply,
    val_main_c_apply, val_main_c_0_apply]
  rfl

/-- The start index of the first cloud's gather at `(n, d)` is the neighbour word, a negative one shifted up. -/
theorem wrapP_at (nb : IVec S50000x16 32) (n : Fin 50000) (d : Fin 16) :
    val_main_v21 (F := Ideal) nb (ix3 n d 0) = wrap (nbr nb n d) := by
  have e : idx_main_v21 (ix3 n d (0 : Fin 1)) = ix2 n d :=
    funext fun a => Fin.ext (by match a with | ⟨0, _⟩ => rfl | ⟨1, _⟩ => rfl)
  rw [val_main_v21_apply, e, val_main_v20_apply, val_main_v17_apply, val_main_v19_apply, val_main_v16_apply, val_main_v18_apply,
    val_main_c_2_apply, val_main_c_3_apply]
  rfl

/-- The second cloud's gathered neighbour: the padded cloud at the row the neighbour word names. -/
theorem gatherG_at (X : FVec Ideal S32x50000x3 .f32) (nb : IVec S50000x16 32) (b : Fin 32) (n : Fin 50000) (d : Fin 16)
    (c : Fin 3) : val_main_v11 (F := Ideal) X nb (ix4 b n d c) = pad (pts X) b (row (nbr nb n d)) c := by
  unfold val_main_v11
  exact (gather_at _ _ b n d c (nbr nb n d) (wrapG_at nb n d)).trans (padG_at X b _ c)

/-- The first cloud's gathered neighbour: the padded cloud at the row the neighbour word names. -/
theorem gatherP_at (X : FVec Ideal S32x50000x3 .f32) (nb : IVec S50000x16 32) (b : Fin 32) (n : Fin 50000) (d : Fin 16)
    (c : Fin 3) : val_main_v22 (F := Ideal) X nb (ix4 b n d c) = pad (pts X) b (row (nbr nb n d)) c := by
  unfold val_main_v22
  exact (gather_at _ _ b n d c (nbr nb n d) (wrapP_at nb n d)).trans (padP_at X b _ c)

/-! ## The sums over the sixteen neighbours -/

/-- The second cloud's neighbour sum at a point. -/
theorem nbsumG_at (X : FVec Ideal S32x50000x3 .f32) (nb : IVec S50000x16 32) (b : Fin 32) (n : Fin 50000) (c : Fin 3) :
    val_main_v12 (F := Ideal) X nb (ix3 b n c) = ∑ d : Fin 16, pad (pts X) b (row (nbr nb n d)) c := by
  rw [val_main_v12_apply, val_main_cst_1_apply, Ideal.ofBits_def, Ideal.ofBits_zero_f32, zero_add]
  refine Finset.sum_congr rfl fun d _ => ?_
  have e : idx_main_v12 (ix3 b n c) d = ix4 b n d c :=
    funext fun a => Fin.ext (by match a with | ⟨0, _⟩ => rfl | ⟨1, _⟩ => rfl | ⟨2, _⟩ => rfl | ⟨3, _⟩ => rfl)
  rw [e]
  exact gatherG_at X nb b n d c

/-- The first cloud's neighbour sum at a point. -/
theorem nbsumP_at (X : FVec Ideal S32x50000x3 .f32) (nb : IVec S50000x16 32) (b : Fin 32) (n : Fin 50000) (c : Fin 3) :
    val_main_v23 (F := Ideal) X nb (ix3 b n c) = ∑ d : Fin 16, pad (pts X) b (row (nbr nb n d)) c := by
  rw [val_main_v23_apply, val_main_cst_4_apply, Ideal.ofBits_def, Ideal.ofBits_zero_f32, zero_add]
  refine Finset.sum_congr rfl fun d _ => ?_
  have e : idx_main_v23 (ix3 b n c) d = ix4 b n d c :=
    funext fun a => Fin.ext (by match a with | ⟨0, _⟩ => rfl | ⟨1, _⟩ => rfl | ⟨2, _⟩ => rfl | ⟨3, _⟩ => rfl)
  rw [e]
  exact gatherP_at X nb b n d c

/-! ## The degrees -/

/-- The degree laid along the batches and coordinates, for the second cloud. -/
theorem degG_at (dg : IVec S50000 32) (b : Fin 32) (n : Fin 50000) (c : Fin 3) :
    val_main_v13 (F := Ideal) dg (ix3 b n c) = degE dg n := by
  have e : idx_main_v4 (idx_main_v13 (ix3 b n c)) = ix1 n :=
    funext fun a => Fin.ext (by match a with | ⟨0, _⟩ => rfl)
  rw [val_main_v13_apply, val_main_v4_apply, e, val_main_v3_apply]
  rfl

/-- The degree laid along the batches and coordinates, for the first cloud. -/
theorem degP_at (dg : IVec S50000 32) (b : Fin 32) (n : Fin 50000) (c : Fin 3) :
    val_main_v24 (F := Ideal) dg (ix3 b n c) = degE dg n := by
  have e : idx_main_v4 (idx_main_v24 (ix3 b n c)) = ix1 n :=
    funext fun a => Fin.ext (by match a with | ⟨0, _⟩ => rfl)
  rw [val_main_v24_apply, val_main_v4_apply, e, val_main_v3_apply]
  rfl

/-! ## The Laplacians, their distance, and the loss -/

/-- The second cloud's Laplacian. -/
theorem lapG_at (X : FVec Ideal S32x50000x3 .f32) (nb : IVec S50000x16 32) (dg : IVec S50000 32) (b : Fin 32) (n : Fin 50000)
    (c : Fin 3) : val_main_v15 (F := Ideal) X nb dg (ix3 b n c) = lapRef (pts X) (nbr nb) (degE dg) b n c := by
  rw [val_main_v15_apply, val_main_v14_apply, degG_at, nbsumG_at, Ideal.subf_def, Ideal.mulf_def]
  rfl

/-- The first cloud's Laplacian. -/
theorem lapP_at (X : FVec Ideal S32x50000x3 .f32) (nb : IVec S50000x16 32) (dg : IVec S50000 32) (b : Fin 32) (n : Fin 50000)
    (c : Fin 3) : val_main_v26 (F := Ideal) X nb dg (ix3 b n c) = lapRef (pts X) (nbr nb) (degE dg) b n c := by
  rw [val_main_v26_apply, val_main_v25_apply, degP_at, nbsumP_at, Ideal.subf_def, Ideal.mulf_def]
  rfl

/-- The distance between the two Laplacians at a point. -/
theorem dist_at (P G : FVec Ideal S32x50000x3 .f32) (nb : IVec S50000x16 32) (dg : IVec S50000 32) (b : Fin 32)
    (n : Fin 50000) : val_main_v30 (F := Ideal) P G nb dg (ix2 b n) = distRef (pts P) (pts G) (nbr nb) (degE dg) b n := by
  rw [val_main_v30_apply, val_main_v29_apply, val_main_cst_5_apply, Ideal.hostUnary_sqrt_def, Ideal.ofBits_def,
    Ideal.ofBits_zero_f32, zero_add]
  unfold distRef
  refine congrArg Ideal.sqrt (Finset.sum_congr rfl fun c _ => ?_)
  have e : idx_main_v29 (ix2 b n) c = ix3 b n c :=
    funext fun a => Fin.ext (by match a with | ⟨0, _⟩ => rfl | ⟨1, _⟩ => rfl | ⟨2, _⟩ => rfl)
  rw [e, val_main_v28_apply, val_main_v27_apply, lapP_at, lapG_at, Ideal.subf_def, Ideal.mulf_def]

/-- The distances summed over a batch's points. -/
theorem rowsum_at (P G : FVec Ideal S32x50000x3 .f32) (nb : IVec S50000x16 32) (dg : IVec S50000 32) (b : Fin 32) :
    val_main_v31 (F := Ideal) P G nb dg (ix1 b) = ∑ n : Fin 50000, distRef (pts P) (pts G) (nbr nb) (degE dg) b n := by
  rw [val_main_v31_apply, val_main_cst_6_apply, Ideal.ofBits_def, Ideal.ofBits_zero_f32, zero_add]
  refine Finset.sum_congr rfl fun n _ => ?_
  have e : idx_main_v31 (ix1 b) n = ix2 b n :=
    funext fun a => Fin.ext (by match a with | ⟨0, _⟩ => rfl | ⟨1, _⟩ => rfl)
  rw [e]
  exact dist_at P G nb dg b n

/-- The batches' indices are the thirty-two batches. -/
def batchEquiv : S32.Idx ≃ Fin 32 where
  toFun j := j 0
  invFun b := ix1 b
  left_inv j := (eq_ix1 j).symm
  right_inv _ := rfl

end Ref

open Ref in
/-- The reference's last stage at its one index. -/
theorem ref_value (P G : FVec Ideal S32x50000x3 .f32) (nb : IVec S50000x16 32) (dg : IVec S50000 32) (i : S_.Idx) :
    val_main_v33 (F := Ideal) P G nb dg i = lossRef (pts P) (pts G) (nbr nb) (degE dg) := by
  rw [val_main_v33_apply, val_main_v32_apply, val_main_cst_7_apply, val_main_cst_8_apply, Ideal.hostDivf_def]
  simp only [Ideal.ofBits_def]
  rw [Ideal.ofBits_zero_f32, zero_add]
  unfold lossRef
  refine congrArg (fun s => Ideal.div s (Ideal.ofBits .f32 0x42000000#32)) ?_
  refine (Fintype.sum_equiv batchEquiv _ _ fun j => ?_)
  rw [eq_ix1 j]
  exact rowsum_at P G nb dg (j 0)

end Cert.Laplace

end
-- ==== Proof.KerArray.lean ====
/-
  The kernel program's run with its result named: the host tail applied to the array of the 25 stored blocks, each block
  the body's payload of the tile's three input blocks.
-/
import proofs.«418512_j23167053595271_2_alg».proof.Proof.Gen.KernelIdeal.Frame
import Idealize.ShloMosaic.Lib.Pipeline.Value
import Idealize.ShloMosaic.Lib.ValueIdx
import Idealize.ShloMosaic.Lib.StableHlo.Run

noncomputable section

namespace Cert.Laplace.Ker

open Idealize.ShloMosaic Idealize.ShloMosaic.TcCoe Idealize.SL.Sem Idealize.ShloMosaic.ValueIdx
open Cert.KernelIdeal Cert.KernelIdeal.Gen Cert.KernelIdeal.Facts₀ Cert.KernelIdeal.Facts

variable {F : FTy → Type} [FloatOps F]

/-- Row `r` of tile `t`. -/
def tileRow (t : Fin 25) (r : Fin 2000) : Fin 50000 := ⟨2000 * t.val + r.val, by omega⟩

/-- Tile `t` of the gathered array. -/
def blk5 (x5 : Vec F S50000x16x96 .f32) (t : Fin 25) : Vec F S2000x16x96 .f32 :=
  fun y => x5 (ix3 (tileRow t ⟨(y 0).val, (y 0).isLt⟩) (⟨(y 1).val, (y 1).isLt⟩ : Fin 16) (⟨(y 2).val, (y 2).isLt⟩ : Fin 96))
/-- Tile `t` of the point-wise array. -/
def blk2 (x2 : Vec F S50000x96 .f32) (t : Fin 25) : Vec F S2000x96 .f32 :=
  fun y => x2 (ix2 (tileRow t ⟨(y 0).val, (y 0).isLt⟩) (⟨(y 1).val, (y 1).isLt⟩ : Fin 96))
/-- Tile `t` of the degree column. -/
def blk7 (x7 : Vec F S50000x1 .f32) (t : Fin 25) : Vec F S2000x1 .f32 :=
  fun y => x7 (ix2 (tileRow t ⟨(y 0).val, (y 0).isLt⟩) (⟨(y 1).val, (y 1).isLt⟩ : Fin 1))

/-- The array of stored blocks: block `t` is the payload of tile `t`. -/
def outArr (x5 : Vec F S50000x16x96 .f32) (x2 : Vec F S50000x96 .f32) (x7 : Vec F S50000x1 .f32) : Vec F S25x1x32 .f32 :=
  fun j => k0_pay1 (blk5 x5 ⟨(j 0).val, (j 0).isLt⟩) (blk2 x2 ⟨(j 0).val, (j 0).isLt⟩) (blk7 x7 ⟨(j 0).val, (j 0).isLt⟩)
    (ix3 (0 : Fin 1) (0 : Fin 1) (⟨(j 2).val, (j 2).isLt⟩ : Fin 32))

/-- The host operations after the pallas_call: the blocks summed over the tiles, then over the batch, divided by 32. -/
def tailArr (a : Vec F S25x1x32 .f32) : FVec F S_ .f32 :=
  Host.divf
    (Host.reduceAdd
      (Host.reduceAdd (shapeCast S25x32 a Facts₀.shapeCasts_S25x1x32_S25x32) (constant S_ .f32 0x00000000#32)
        Facts₀.reducesTo_S25x32_S32_d0 Facts₀.h_S_)
      (constant S_ .f32 0x00000000#32) Facts₀.reducesTo_S32_S_d0 Facts₀.h_S_)
    (constant S_ .f32 0x42000000#32)

variable (m : (ℓ : Loc nD τ sig) → Buf (Elt F) ℓ) (ρ : Dev nD → PrngReg)

/-! ## The grid's points and the tiles -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The grid's point `t` as a tile number. -/
def tileOf (t : Fin cfg0.N) : Fin 25 := ⟨t.val, Nat.lt_of_lt_of_eq t.isLt N_0⟩

/-- Every window's block index at point `t` is `t` along the rows and `0` along every other axis. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## The input blocks at a point are the tiles -/

/-- Where an element of the gathered array's block at point `t` sits in the array. -/
theorem emb0_eq (t : Fin cfg0.N) (y : S2000x16x96.Idx) : ((cfg0.win 0).blk t).view.emb y
      = ix3 (tileRow (tileOf t) ⟨(y 0).val, (y 0).isLt⟩) (⟨(y 1).val, (y 1).isLt⟩ : Fin 16) (⟨(y 2).val, (y 2).isLt⟩ : Fin 96) := by
  obtain ⟨e0, e1, e2, -⟩ := idx_facts t
  funext a; apply Fin.ext
  match a with
  | ⟨0, _⟩ => show win0_0.index t (0 : Fin 3) * 2000 + 1 * (y 0).val = 2000 * t.val + (y 0).val; omega
  | ⟨1, _⟩ => show win0_0.index t (1 : Fin 3) * 16 + 1 * (y 1).val = (y 1).val; omega
  | ⟨2, _⟩ => show win0_0.index t (2 : Fin 3) * 96 + 1 * (y 2).val = (y 2).val; omega

/-- The gathered array's block at point `t` is its tile `t`. -/
theorem iblk0_eq (c : Dev nD) (t : Fin cfg0.N) :
    (iblk m c 0 t : Vec F S2000x16x96 .f32) = blk5 (V m c main_v5) (tileOf t) := by
  funext (y : S2000x16x96.Idx)
  unfold iblk blk5
  rw [View.read_apply, cast_eq, emb0_eq t y]

/-- Where an element of the point-wise array's block at point `t` sits in the array. -/
theorem emb1_eq (t : Fin cfg0.N) (y : S2000x96.Idx) : ((cfg0.win 1).blk t).view.emb y
      = ix2 (tileRow (tileOf t) ⟨(y 0).val, (y 0).isLt⟩) (⟨(y 1).val, (y 1).isLt⟩ : Fin 96) := by
  obtain ⟨-, -, -, e0, e1, -⟩ := idx_facts t
  funext a; apply Fin.ext
  match a with
  | ⟨0, _⟩ => show win0_1.index t (0 : Fin 2) * 2000 + 1 * (y 0).val = 2000 * t.val + (y 0).val; omega
  | ⟨1, _⟩ => show win0_1.index t (1 : Fin 2) * 96 + 1 * (y 1).val = (y 1).val; omega

/-- The point-wise array's block at point `t` is its tile `t`. -/
theorem iblk1_eq (c : Dev nD) (t : Fin cfg0.N) :
    (iblk m c 1 t : Vec F S2000x96 .f32) = blk2 (V m c main_v2) (tileOf t) := by
  funext (y : S2000x96.Idx)
  unfold iblk blk2
  rw [View.read_apply, cast_eq, emb1_eq t y]

/-- Where an element of the degree column's block at point `t` sits in the column. -/
theorem emb2_eq (t : Fin cfg0.N) (y : S2000x1.Idx) : ((cfg0.win 2).blk t).view.emb y
      = ix2 (tileRow (tileOf t) ⟨(y 0).val, (y 0).isLt⟩) (⟨(y 1).val, (y 1).isLt⟩ : Fin 1) := by
  obtain ⟨-, -, -, -, -, e0, e1, -⟩ := idx_facts t
  funext a; apply Fin.ext
  match a with
  | ⟨0, _⟩ => show win0_2.index t (0 : Fin 2) * 2000 + 1 * (y 0).val = 2000 * t.val + (y 0).val; omega
  | ⟨1, _⟩ => show win0_2.index t (1 : Fin 2) * 1 + 1 * (y 1).val = (y 1).val; omega

/-- The degree column's block at point `t` is its tile `t`. -/
theorem iblk2_eq (c : Dev nD) (t : Fin cfg0.N) :
    (iblk m c 2 t : Vec F S2000x1 .f32) = blk7 (V m c main_v7) (tileOf t) := by
  funext (y : S2000x1.Idx)
  unfold iblk blk7
  rw [View.read_apply, cast_eq, emb2_eq t y]

/-! ## What a point writes back is its block of the array of stored blocks -/

/-- The array of stored blocks at an index of tile `tt`'s block is the payload of tile `tt` at the index inside the block. -/
theorem outArr_at (x5 : Vec F S50000x16x96 .f32) (x2 : Vec F S50000x96 .f32) (x7 : Vec F S50000x1 .f32)
    (e : S25x1x32.Idx) (tt : Fin 25) (j : S1x1x32.Idx) (h0 : (e 0).val = tt.val) (h2 : (e 2).val = (j 2).val) :
    outArr x5 x2 x7 e = k0_pay1 (blk5 x5 tt) (blk2 x2 tt) (blk7 x7 tt) j := by
  have ht : (⟨(e 0).val, (e 0).isLt⟩ : Fin 25) = tt := Fin.ext h0
  have hj : ix3 (0 : Fin 1) (0 : Fin 1) (⟨(e 2).val, (e 2).isLt⟩ : Fin 32) = j := by
    funext a; apply Fin.ext
    match a with
    | ⟨0, _⟩ => show (0 : Nat) = (j 0).val; have h : (j 0).val < 1 := (j 0).isLt; omega
    | ⟨1, _⟩ => show (0 : Nat) = (j 1).val; have h : (j 1).val < 1 := (j 1).isLt; omega
    | ⟨2, _⟩ => exact h2
  unfold outArr
  rw [ht, hj]

/-- WHAT POINT `t` WRITES BACK is block `t` of the array of stored blocks. -/
theorem flushed_eq (c : Dev nD) (t : Fin cfg0.N) :
    (dats m 0 c).flushed 3 t
      = ((cfg0.win 3).blk t).view.read (Elt F) (outArr (V m c main_v5) (V m c main_v2) (V m c main_v7)) := by
  show (cfg0.win 3).cut (grid0.coords t) ((dats m 0 c).after 3 t) = _
  rw [after0_3]
  unfold out0_3
  rw [View.canon_unit_zero zeros3]
  simp only [View.ld_unit_zero (S := S2000x16x96) zeros3, View.ld_unit_zero (S := S2000x96) zeros2,
    View.ld_unit_zero (S := S2000x1) zeros2]
  rw [iblk0_eq m c t, iblk1_eq m c t, iblk2_eq m c t]
  obtain ⟨-, -, -, -, -, -, -, e0, e1, e2⟩ := idx_facts t
  funext (j : S1x1x32.Idx)
  rw [View.read_apply, cast_eq]
  refine (outArr_at (V m c main_v5) (V m c main_v2) (V m c main_v7) (((cfg0.win 3).blk t).view.emb j) (tileOf t)
    ((cfg0.win 3).xinj (grid0.coords t) j) ?_ ?_).symm
  · show win0_3.index t (0 : Fin 3) * 1 + 1 * (j 0).val = t.val
    have h : (j 0).val < 1 := (j 0).isLt
    omega
  · show win0_3.index t (2 : Fin 3) * 32 + 1 * (j 2).val = (j 2).val
    omega

/-! ## The blocks cover the array -/

/-- An index of the array is in point `t`'s block iff each coordinate is in the block's range on its axis. -/
theorem mem_blk3 (t : Fin cfg0.N) (i : S25x1x32.Idx) :
    i ∈ ((cfg0.win 3).blk t).view.set ↔ ∀ a : Fin 3, win0_3.index t a * S1x1x32.size a ≤ (i a).val
      ∧ (i a).val < win0_3.index t a * S1x1x32.size a + S1x1x32.size a := by
  show i ∈ ((View.whole main_v8).slice (win0_3.rect t)).set ↔ _
  rw [View.set_slice_whole, Rect.mem_set_unit]
  exact Iff.rfl

/-- Every index `(t, 0, b)` of the array lies in the block point `t` writes back. -/
theorem cover3 (i : S25x1x32.Idx) :
    ∃ t : Fin cfg0.N, (cfg0.win 3).flush t = true ∧ i ∈ ((cfg0.win 3).blk t).view.set := by
  have hi0 : (i 0).val < 25 := (i 0).isLt
  have hi1 : (i 1).val < 1 := (i 1).isLt
  have hi2 : (i 2).val < 32 := (i 2).isLt
  obtain ⟨t, ht⟩ : ∃ t : Fin cfg0.N, t.val = (i 0).val := ⟨⟨(i 0).val, Nat.lt_of_lt_of_eq hi0 N_0.symm⟩, rfl⟩
  obtain ⟨-, -, -, -, -, -, -, e0, e1, e2⟩ := idx_facts t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 32 ≤ (i 2).val ∧ (i 2).val < win0_3.index t (2 : Fin 3) * 32 + 32
    omega

/-- THE ARRAY after the region: the array of stored blocks. -/
theorem final3 (c : Dev nD) :
    (dats m 0 c).arrAt 3 cfg0.N = outArr (V m c main_v5) (V m c main_v2) (V m c main_v7) :=
  (dats m 0 c).arrAt_eq_of_cover 3 (outArr (V m c main_v5) (V m c main_v2) (V m c main_v7))
    (fun t _ => flushed_eq m c t) cover3

/-! ## The host tail -/

/-- The result buffer after the host operations that follow the region: the tail of the array of stored blocks. -/
theorem tail_eq (c : Dev nD) :
    Pipeline.afterTail₀ cfgs (dats m) 0 (V0 m) [hostOps1] c main_v12
      = tailArr (outArr (V m c main_v5) (V m c main_v2) (V m c main_v7)) := by
  unfold Pipeline.afterTail₀
  show StableHlo.after hostOps1 _ (Proc.devRef .tc main_v12) = _
  after_results
  have hA : Pipeline.withArrays (cfgs 0).spec c (V0 m c) (fun w => (dats m 0 c).arrAt w (cfgs 0).N) (Proc.devRef .tc main_v8)
      = outArr (V m c main_v5) (V m c main_v2) (V m c main_v7) :=
    (Pipeline.withArrays_arr spec0 launch0.win.arr_inj c _ _ 3).trans (final3 m c)
  rw [hA]
  generalize outArr (V m c main_v5) (V m c main_v2) (V m c main_v7) = A
  rfl

/-! ## The run -/

/-- Every weakly fair execution ends with the result at the tail of the stored blocks' array and the arguments as
    launched. -/
theorem run_named :
    θ_run defs (onTc (τ := τ) (main (F := F))) ⟨m, fun _ => 0, ρ⟩ (fun r => ∀ c : Dev nD,
      r.2.mem ((c.tc : Thread nD τ).loc main_v12)
        = tailArr (outArr (V m c main_v5) (V m c main_v2) (V m c main_v7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Laplace.Ker

end
-- ==== Proof.KerPayload.lean ====
/-
  What one grid point stores: for each batch, the sum over the tile's 2000 points of the length of the Laplacian.
-/
import proofs.«418512_j23167053595271_2_alg».proof.Proof.Gen.KernelIdeal.Skeleton
import proofs.«418512_j23167053595271_2_alg».proof.Proof.Spec
import Idealize.ShloMosaic.PureOps.Ideal.Laws
import Idealize.ShloMosaic.Lib.Pipeline.Value
import Idealize.ShloMosaic.Lib.ValueLayout

noncomputable section

open scoped BigOperators

namespace Cert.Laplace.Ker

open Idealize.ShloMosaic Idealize.ShloMosaic.ValueIdx Cert.KernelIdeal Cert.KernelIdeal.Gen Cert.Laplace

/-- One entry of the tile's Laplacian from the three blocks: the point-wise block times the degree column less the
    sum of the sixteen gathered rows. -/
def tileLap (x0 : Vec Ideal S2000x16x96 .f32) (x1 : Vec Ideal S2000x96 .f32) (x2 : Vec Ideal S2000x1 .f32)
    (r : Fin 2000) (c : Fin 3) (b : Fin 32) : EReal :=
  x1 (ix2 r (lane c b)) * x2 (ix2 r (0 : Fin 1)) - ∑ d : Fin 16, x0 (ix3 r d (lane c b))

/-- Its length at a point of the tile, the three squares added left to right. -/
def tileDist (x0 : Vec Ideal S2000x16x96 .f32) (x1 : Vec Ideal S2000x96 .f32) (x2 : Vec Ideal S2000x1 .f32)
    (r : Fin 2000) (b : Fin 32) : EReal :=
  Ideal.sqrt ((tileLap x0 x1 x2 r 0 b * tileLap x0 x1 x2 r 0 b + tileLap x0 x1 x2 r 1 b * tileLap x0 x1 x2 r 1 b)
    + tileLap x0 x1 x2 r 2 b * tileLap x0 x1 x2 r 2 b)

/-- A sum over the sixteen rows of a [2000, 16, 96] block, read at (r, l): the sum over d of the block at (r, d, l). -/
theorem sumRows_apply (v : FVec Ideal S2000x16x96 .f32) (h : S2000x16x96.Reduces [1] S2000x96) (hφ : FKind.Formats .f32)
    (hacc : (0x00000000#32 : BitVec 32) = FKind.add.neutral .f32 hφ) (r : Fin 2000) (l : Fin 96) :
    multiReduction (F := Ideal) .add [1] S2000x96 v 0x00000000#32 h hφ hacc (ix2 r l) = ∑ d : Fin 16, v (ix3 r d l) := by
  refine (Ideal.multiReduction_add_single v _ h hφ hacc (ix2 r l)).trans ?_
  refine Finset.sum_congr rfl fun k _ => ?_
  exact congrArg v (funext fun a => Fin.ext (by match a with | ⟨0, _⟩ => rfl | ⟨1, _⟩ => rfl | ⟨2, _⟩ => rfl))

/-- A sum over the 2000 points of a [2000, 32] block, read at b: the sum over r of the block at (r, b). -/
theorem sumPoints_apply (v : FVec Ideal S2000x32 .f32) (h : S2000x32.Reduces [0] S32) (hφ : FKind.Formats .f32)
    (hacc : (0x00000000#32 : BitVec 32) = FKind.add.neutral .f32 hφ) (b : Fin 32) :
    multiReduction (F := Ideal) .add [0] S32 v 0x00000000#32 h hφ hacc (ix1 b) = ∑ r : Fin 2000, v (ix2 r b) := by
  refine (Ideal.multiReduction_add_single v _ h hφ hacc (ix1 b)).trans ?_
  refine Finset.sum_congr rfl fun k _ => ?_
  exact congrArg v (funext fun a => Fin.ext (by match a with | ⟨0, _⟩ => rfl | ⟨1, _⟩ => rfl))

/-- A [2000, 1] column spread over 96 lanes reads, at (r, l), the column at r. -/
theorem spreadCol_apply {α : Type} (v : S2000x1.Idx → α) (h : S2000x1.Broadcasts S2000x96) (r : Fin 2000) (l : Fin 96) :
    broadcastTo S2000x96 v h (ix2 r l) = v (ix2 r (0 : Fin 1)) := by
  refine broadcastTo_apply v h (ix2 r l) (ix2 r (0 : Fin 1)) fun ax => ?_
  match ax with
  | ⟨0, _⟩ => rfl
  | ⟨1, _⟩ => rfl

/-- A cut of 32 lanes of a [2000, 96] block from lane `32 c` reads, at (r, b), the block at (r, lane c b). -/
theorem cutLanes_apply {α : Type} (v : S2000x96.Idx → α) (o : Nat) (h : S2000x96.Slices ![0, o] S2000x32) (c : Fin 3)
    (ho : o = c.val * 32) (r : Fin 2000) (b : Fin 32) :
    extractStridedSlice S2000x32 ![0, o] v h (ix2 r b) = v (ix2 r (lane c b)) :=
  slice2_axis1_apply o v h r b (lane c b) (by show c.val * 32 + b.val = o + b.val; omega)

/-- The tile's Laplacian as one [2000, 96] block: the point-wise block times the degree column spread over the lanes,
    less the sum of the sixteen gathered rows. -/
def lapBlock (x0 : Vec Ideal S2000x16x96 .f32) (x1 : Vec Ideal S2000x96 .f32) (x2 : Vec Ideal S2000x1 .f32) :
    FVec Ideal S2000x96 .f32 :=
  subf (mulf (shapeCast S2000x96 x1 shapeCasts_S2000x96_S2000x96)
      (broadcastTo S2000x96 (shapeCast S2000x1 x2 shapeCasts_S2000x1_S2000x1) broadcasts_S2000x1_S2000x96))
    (multiReduction (F := Ideal) .add [1] S2000x96 (shapeCast S2000x16x96 x0 shapeCasts_S2000x16x96_S2000x16x96)
      0x00000000#32 reduces_S2000x16x96_S2000x96 (.inl rfl) rfl)

/-- The block at (r, lane c b) is the Laplacian's entry. -/
theorem lapBlock_apply (x0 : Vec Ideal S2000x16x96 .f32) (x1 : Vec Ideal S2000x96 .f32) (x2 : Vec Ideal S2000x1 .f32)
    (r : Fin 2000) (c : Fin 3) (b : Fin 32) :
    lapBlock x0 x1 x2 (ix2 r (lane c b)) = tileLap x0 x1 x2 r c b := by
  unfold lapBlock tileLap
  rw [shapeCast_self, shapeCast_self, shapeCast_self]
  refine congrArg₂ (· - ·) (congrArg (x1 (ix2 r (lane c b)) * ·) ?_) ?_
  · exact spreadCol_apply x2 _ r (lane c b)
  · exact sumRows_apply x0 _ _ _ r (lane c b)

/-- The stored block at batch `b`. -/
theorem pay_apply (x0 : Vec Ideal S2000x16x96 .f32) (x1 : Vec Ideal S2000x96 .f32) (x2 : Vec Ideal S2000x1 .f32)
    (b : Fin 32) :
    k0_pay1 (F := Ideal) x0 x1 x2 (ix3 (0 : Fin 1) (0 : Fin 1) b) = ∑ r : Fin 2000, tileDist x0 x1 x2 r b := by
  unfold k0_pay1
  refine (shapeCast_ab_1ab_apply _ _ (0 : Fin 1) (0 : Fin 1) b).trans ?_
  refine (shapeCast_a_1a_apply _ _ (0 : Fin 1) b).trans ?_
  refine (sumPoints_apply _ _ _ _ b).trans ?_
  refine Finset.sum_congr rfl fun r _ => ?_
  have e0 := (cutLanes_apply (lapBlock x0 x1 x2) 0 slices_S2000x96_o0_0_S2000x32 0 rfl r b).trans
    (lapBlock_apply x0 x1 x2 r 0 b)
  have e1 := (cutLanes_apply (lapBlock x0 x1 x2) 32 slices_S2000x96_o0_32_S2000x32 1 rfl r b).trans
    (lapBlock_apply x0 x1 x2 r 1 b)
  have e2 := (cutLanes_apply (lapBlock x0 x1 x2) 64 slices_S2000x96_o0_64_S2000x32 2 rfl r b).trans
    (lapBlock_apply x0 x1 x2 r 2 b)
  unfold tileDist
  rw [← e0, ← e1, ← e2]
  rfl

end Cert.Laplace.Ker

end
-- ==== Proof.KerTerms.lean ====
/-
  The arrays the kernel's host prefix hands to the pallas_call, as functions of the arguments.

  `diffArr`: the difference of the clouds laid out point-major with lanes coordinate-major, `[50000, 96]`.
  `padArr`: the same with one more row, of zeros. `startArr`: the neighbour words, negative ones shifted up by 50001.
  `maskArr`: which of them then lie in `[0, 50000]`. `takeArr`: the rows of `padArr` they name, and a fill where the
  mask is off. `degArr`: the degrees as a column.
-/
import proofs.«418512_j23167053595271_2_alg».proof.Proof.Gen.KernelIdeal

noncomputable section

namespace Cert.Laplace.Ker

open Idealize.ShloMosaic Cert.KernelIdeal Cert.KernelIdeal.Facts₀ Cert.KernelIdeal.Facts

variable {F : FTy → Type} [FloatOps F]

/-- The difference of the clouds, `[50000, 96]`, lane `c · 32 + b`. -/
def diffArr (P G : FVec F S32x50000x3 .f32) : FVec F S50000x96 .f32 :=
  shapeCast S50000x96 (transpose S50000x3x32 [1, 2, 0] (subf P G) transposes_S32x50000x3_S50000x3x32_1_2_0)
    shapeCasts_S50000x3x32_S50000x96

/-- The same with a last row of zeros. -/
def padArr (P G : FVec F S32x50000x3 .f32) : FVec F S50001x96 .f32 :=
  concatenate S50001x96 0 [⟨S50000x96, diffArr P G⟩,
    ⟨S1x96, broadcastInDim S1x96 ![] bcast_S_S1x96 (constant S_ .f32 0x00000000#32)⟩]
    concatenates_S50000x96_S1x96_S50001x96_d0

/-- The neighbour words with the negative ones shifted up by 50001. -/
def wrapArr (nb : IVec S50000x16 32) : IVec S50000x16 32 :=
  select (cmpi .slt nb (broadcastInDim S50000x16 ![] bcast_S_S50000x16 (constantI S_ 32 0#32)))
    (addi nb (broadcastInDim S50000x16 ![] bcast_S_S50000x16 (constantI S_ 32 50001#32))) nb

/-- The same as the gather's start indices. -/
def startArr (nb : IVec S50000x16 32) : IVec S50000x16x1 32 :=
  broadcastInDim S50000x16x1 ![0, 1] bcast_S50000x16_S50000x16x1_0_1 (wrapArr nb)

/-- Which start indices lie in `[0, 50000]`. -/
def maskArr (nb : IVec S50000x16 32) : IVec S50000x16 1 :=
  Host.reduce IntOp.andi
    (andi (cmpi .sge (startArr nb) (broadcastInDim S50000x16x1 ![] bcast_S_S50000x16x1 (constantI S_ 32 0#32)))
      (cmpi .sle (startArr nb) (broadcastInDim S50000x16x1 ![0, 1, 2] bcast_S1x1x1_S50000x16x1_0_1_2
        (broadcastInDim S1x1x1 ![2] bcast_S1_S1x1x1_2 (constantI S1 32 50000#32)))))
    (constantI S_ 1 1#1) reducesTo_S50000x16x1_S50000x16_d2 h_S_

/-- The neighbours' rows of the padded difference; a fill where the mask is off. -/
def takeArr (P G : FVec F S32x50000x3 .f32) (nb : IVec S50000x16 32) : FVec F S50000x16x96 .f32 :=
  select (broadcastInDim S50000x16x96 ![0, 1] bcast_S50000x16_S50000x16x96_0_1 (maskArr nb))
    (Host.gather gather_S50001x96_S50000x16x1_S50000x16x96_2_0_n_n_0_2_196 (padArr P G) (startArr nb))
    (broadcastInDim S50000x16x96 ![] bcast_S_S50000x16x96 (constant S_ .f32 0x7FC00000#32))

/-- The degrees as a column of numbers. -/
def degArr (dg : IVec S50000 32) : FVec F S50000x1 .f32 :=
  shapeCast S50000x1 (sitofp .f32 dg) shapeCasts_S50000_S50000x1

end Cert.Laplace.Ker

end
-- ==== Proof.KerHostV.lean ====
/-
  What the pallas_call finds in its three input arrays: the host prefix's terms of the arguments.
-/
import proofs.«418512_j23167053595271_2_alg».proof.Proof.Gen.KernelIdeal.Frame
import proofs.«418512_j23167053595271_2_alg».proof.Proof.KerTerms
import Idealize.ShloMosaic.Lib.StableHlo.Run

noncomputable section

namespace Cert.Laplace.Ker

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- A value carried to a typed reference's buffer type and back is the value. -/
private theorem ofBuf_toBuf {T : BufTy} {Val : EltTy → Type} (x : TRef sig T) (v : T.Contents Val) :
    x.ofBuf (x.toBuf v) = v := by
  obtain ⟨r, h, h1, h2⟩ := x
  subst h
  rfl

/-- The point-wise array is the difference of the clouds, re-laid. -/
theorem V_v2 (c : Dev nD) :
    V m c main_v2 = diffArr (m ((c.tc : Thread nD τ).loc main_arg0)) (m ((c.tc : Thread nD τ).loc main_arg1)) := by
  dsimp only [Gen.V, Gen.V0]
  simp only [Gen.hostOps0, Gen.hostOps0_1, Gen.hostOps0_2, List.flatten_cons, List.flatten_nil, List.append_nil,
    List.cons_append, List.nil_append]
  -- of the 31 operations only the subtraction, the transposition and the reshape reach this array
  after_results
  unfold diffArr
  rfl

-- the array is the last of the 23 values of the gather's function, each a function of earlier ones
set_option maxRecDepth 8192 in
set_option maxHeartbeats 2000000 in
/-- The gathered array is the neighbours' rows of the padded difference. -/
theorem V_v5 (c : Dev nD) :
    V m c main_v5 = takeArr (m ((c.tc : Thread nD τ).loc main_arg0)) (m ((c.tc : Thread nD τ).loc main_arg1))
      (m ((c.tc : Thread nD τ).loc main_arg2)) := by
  -- at the result, the padded array and the neighbour words the buffer's type IS the value's type: the carrying is the identity
  have h5 : ∀ v : FVec F S50000x16x96 .f32,
      (TRef.of main_v5 rfl (by decide) rfl : TRef sig ⟨S50000x16x96, .f32⟩).toBuf (Val := Elt F) v = v := fun _ => rfl
  have h4 : ∀ v : FVec F S50001x96 .f32,
      (TRef.of main_v4 rfl (by decide) rfl : TRef sig ⟨S50001x96, .f32⟩).ofBuf (Val := Elt F) v = v := fun _ => rfl
  have h2 : ∀ v : IVec S50000x16 32,
      (TRef.of main_arg2 rfl (by decide) rfl : TRef sig ⟨S50000x16, .i32⟩).ofBuf (Val := Elt F) v = v := fun _ => rfl
  dsimp only [Gen.V, Gen.V0]
  simp only [Gen.hostOps0, Gen.hostOps0_1, Gen.hostOps0_2, List.flatten_cons, List.flatten_nil, List.append_nil,
    List.cons_append, List.nil_append]
  -- every operation's result at its own array, what was there at any other
  after_results_simp
  -- likewise for the two operands of the concatenation, which are listed with their shapes
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  -- each intermediate value is carried to its buffer and back; the ends are carried by the identity
  simp only [ofBuf_toBuf]
  rw [h5, h4]
  simp only [h2]
  unfold takeArr maskArr startArr wrapArr padArr diffArr
  rfl

/-- The degree column. -/
theorem V_v7 (c : Dev nD) : V m c main_v7 = degArr (m ((c.tc : Thread nD τ).loc main_arg3)) := by
  dsimp only [Gen.V, Gen.V0]
  simp only [Gen.hostOps0, Gen.hostOps0_1, Gen.hostOps0_2, List.flatten_cons, List.flatten_nil, List.append_nil,
    List.cons_append, List.nil_append]
  -- only the conversion of the degrees and its reshape reach this array
  after_results
  unfold degArr
  rfl

end Cert.Laplace.Ker

end
-- ==== Proof.KerIdxDiff.lean ====
/-
  The re-laid difference and the degree column at an index.
-/
import proofs.«418512_j23167053595271_2_alg».proof.Proof.KerTerms
import proofs.«418512_j23167053595271_2_alg».proof.Proof.Spec
import Idealize.ShloMosaic.Lib.Pipeline.Value
import Idealize.ShloMosaic.Lib.ValueLayout

noncomputable section

namespace Cert.Laplace.Ker

open Idealize.ShloMosaic Idealize.ShloMosaic.ValueIdx Cert.KernelIdeal Cert.Laplace

/-- Row `n`, lane `c · 32 + b` of the re-laid difference is the difference of the clouds at `(b, n, c)`. -/
theorem diffArr_apply (P G : FVec Ideal S32x50000x3 .f32) (n : Fin 50000) (c : Fin 3) (b : Fin 32) :
    diffArr (F := Ideal) P G (ix2 n (lane c b)) = diffK (pts P) (pts G) b n c := by
  unfold diffArr
  -- the reshape: row n, lane c · 32 + b of [50000, 96] has the row-major position of (n, c, b) in [50000, 3, 32]
  refine (shapeCast_apply _ _ (ix2 n (lane c b)) (ix3 n c b)
    (by rw [Shape.rowMajor_val_two, Shape.rowMajor_val_three]
        show (n.val * 3 + c.val) * 32 + b.val = n.val * 96 + (c.val * 32 + b.val)
        omega)).trans ?_
  -- the transpose [1, 2, 0]: entry (n, c, b) of [50000, 3, 32] is entry (b, n, c) of [32, 50000, 3]
  refine (transpose_apply _ _ _ (ix3 n c b) (ix3 b n c)
    (fun a => match a with | ⟨0, _⟩ => rfl | ⟨1, _⟩ => rfl | ⟨2, _⟩ => rfl)).trans ?_
  rfl

/-- The degree column at a point is the degree word read signed. -/
theorem degArr_apply (dg : IVec S50000 32) (n : Fin 50000) :
    degArr (F := Ideal) dg (ix2 n (0 : Fin 1)) = degE dg n := by
  unfold degArr
  -- the reshape: row n, column 0 of [50000, 1] has the row-major position of n in [50000]
  refine (shapeCast_apply _ _ (ix2 n (0 : Fin 1)) (ix1 n)
    (by rw [Shape.rowMajor_val_two, Shape.rowMajor_val_one]
        show n.val = n.val * 1 + 0
        omega)).trans ?_
  rfl

end Cert.Laplace.Ker

end
-- ==== Proof.KerIdxTake.lean ====
/-
  The gathered array at an index, when every neighbour word indexes the padded table.
-/
import proofs.«418512_j23167053595271_2_alg».proof.Proof.KerIdxDiff
import Idealize.ShloMosaic.Lib.StableHlo.Predicate
import Idealize.ShloMosaic.Lib.ReduceAll
import Idealize.ShloMosaic.PureOps.Ideal.Laws

noncomputable section

namespace Cert.Laplace.Ker

open Idealize.ShloMosaic Idealize.ShloMosaic.ValueIdx Cert.KernelIdeal Cert.KernelIdeal.Facts₀ Cert.Laplace

/-! ## The start indices -/

/-- The shifted words at an index: the word there, shifted up by 50001 when negative. -/
theorem wrapArr_apply (nb : IVec S50000x16 32) (i : S50000x16.Idx) : wrapArr nb i = wrap (nb i) := rfl

/-- The start index of neighbour `d` of point `n` is that neighbour's shifted word. -/
theorem startArr_apply (nb : IVec S50000x16 32) (n : Fin 50000) (d : Fin 16) (z : Fin 1) :
    startArr nb (ix3 n d z) = wrap (nb (ix2 n d)) := by
  show wrapArr nb _ = _
  rw [wrapArr_apply]
  congr 2
  funext a
  match a with
  | ⟨0, _⟩ => rfl
  | ⟨1, _⟩ => rfl

/-- Every start index is the shifted word of some neighbour word. -/
theorem startArr_exists (nb : IVec S50000x16 32) (i : S50000x16x1.Idx) : ∃ k, startArr nb i = wrap (nb k) := ⟨_, rfl⟩

/-! ## The mask -/

/-- One element of the array the mask reduces: `0 ≤ start` and `start ≤ 50000`, both signed. -/
theorem maskElt (nb : IVec S50000x16 32) (i : S50000x16x1.Idx) :
    (andi (cmpi .sge (startArr nb) (broadcastInDim S50000x16x1 ![] bcast_S_S50000x16x1 (constantI S_ 32 0#32)))
      (cmpi .sle (startArr nb) (broadcastInDim S50000x16x1 ![0, 1, 2] bcast_S1x1x1_S50000x16x1_0_1_2
        (broadcastInDim S1x1x1 ![2] bcast_S1_S1x1x1_2 (constantI S1 32 50000#32))))) i
      = IntOp.andi (IntOp.cmpi .sge (startArr nb i) 0#32) (IntOp.cmpi .sle (startArr nb i) 50000#32) := rfl

/-- The word 50001 read signed. -/
theorem toInt_50001 : (50001#32 : BitVec 32).toInt = 50001 := by decide

/-- A word in `[-50001, 50000]`, shifted up by 50001 when negative, lies in `[0, 50000]`: a negative one lands in
    `[0, 50000]` without wrapping, and one that is not negative is unchanged. -/
theorem wrap_bounds (w : BitVec 32) (h : InRange w) : 0 ≤ (wrap w).toInt ∧ (wrap w).toInt ≤ 50000 := by
  unfold InRange at h
  unfold wrap
  by_cases hneg : w.toInt < 0
  · have hc : IntOp.cmpi .slt w 0#32 = 1#1 := by
      unfold IntOp.cmpi
      simp only [BitVec.slt, BitVec.toInt_zero, hneg, decide_true, BitVec.ofBool_true]; rfl
    rw [hc, select_one]
    unfold IntOp.addi
    rw [BitVec.toInt_add, toInt_50001, Int.bmod_def]
    omega
  · have hc : IntOp.cmpi .slt w 0#32 = 0#1 := by
      unfold IntOp.cmpi
      simp only [BitVec.slt, BitVec.toInt_zero, hneg, decide_false, BitVec.ofBool_false]; rfl
    rw [hc, select_zero]
    omega

/-- So both of the mask's comparisons hold of it. -/
theorem cmp_wrap (w : BitVec 32) (h : InRange w) :
    IntOp.andi (IntOp.cmpi .sge (wrap w) 0#32) (IntOp.cmpi .sle (wrap w) 50000#32) = 1#1 := by
  obtain ⟨h0, h1⟩ := wrap_bounds w h
  have e1 : IntOp.cmpi .sge (wrap w) 0#32 = 1#1 := by
    unfold IntOp.cmpi
    simp only [BitVec.sle, BitVec.toInt_zero, h0, decide_true, BitVec.ofBool_true]; rfl
  have e2 : IntOp.cmpi .sle (wrap w) 50000#32 = 1#1 := by
    unfold IntOp.cmpi
    have : (50000#32 : BitVec 32).toInt = 50000 := by decide
    simp only [BitVec.sle, this, h1, decide_true, BitVec.ofBool_true]; rfl
  rw [e1, e2]; rfl

/-- A left fold by `and` from 1 over bits that are all 1 is 1. -/
theorem foldl_andi_one {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons, hf a, h]
    exact foldl_andi_one f hf l _ (by decide)

/-- The mask is on everywhere when every neighbour word is in range: it is an `and` from 1 of comparisons that all hold. -/
theorem maskArr_apply (nb : IVec S50000x16 32) (hr : ∀ i, InRange (nb i)) (j : S50000x16.Idx) : maskArr nb j = 1#1 := by
  unfold maskArr
  rw [Host.reduce_eq_foldl]
  refine foldl_andi_one _ ?_ _ _ rfl
  intro i
  rw [maskElt]
  obtain ⟨k, hk⟩ := startArr_exists nb i
  rw [hk]
  exact cmp_wrap _ (hr k)

/-! ## The gather -/

/-- The gather at `(n, d, l)`: the table at lane `l` of the row the start index `idx[n, d, 0]` names, read signed and
    clamped into `[0, 50000]`. On the row axis (collapsed, start-indexed) the operand coordinate is the clamped start; on
    the lane axis (the one offset axis, slice size 96) it is the result's lane. -/
theorem gather_apply {α : Type} (y : S50001x96.Idx → α) (idx : IVec S50000x16x1 32) (n : Fin 50000) (d : Fin 16) (l : Fin 96) :
    Host.gather gather_S50001x96_S50000x16x1_S50000x16x96_2_0_n_n_0_2_196 y idx (ix3 n d l)
      = y (ix2 (⟨min (idx (ix3 n d (0 : Fin 1))).toInt.toNat 50000, by omega⟩ : Fin 50001) l) := by
  unfold Host.gather
  congr 1
  funext a
  refine Fin.ext ?_
  match a with
  | ⟨1, _⟩ =>
    show GatherDims.start gather_S50001x96_S50000x16x1_S50000x16x96_2_0_n_n_0_2_196 (ix3 n d l) idx 1
      + GatherDims.batchCoord gather_S50001x96_S50000x16x1_S50000x16x96_2_0_n_n_0_2_196 (ix3 n d l) 1
      + GatherDims.offCoord gather_S50001x96_S50000x16x1_S50000x16x96_2_0_n_n_0_2_196 (ix3 n d l) 1 = l.val
    have hk : (1 : Fin 2) ∈ (gather_S50001x96_S50000x16x1_S50000x16x96_2_0_n_n_0_2_196).sKept :=
      (GatherDims.mem_sKept _ _).2 ⟨by decide, List.not_mem_nil⟩
    rw [GatherDims.batchCoord_eq_zero _ _ _ List.not_mem_nil]
    unfold GatherDims.start
    rw [dif_neg (by decide : (1 : Fin 2) ∉ (gather_S50001x96_S50000x16x1_S50000x16x96_2_0_n_n_0_2_196).startIndexMap)]
    unfold GatherDims.offCoord
    rw [dif_pos hk]
    simp only [Nat.zero_add, Nat.add_zero]
    rfl
  | ⟨0, _⟩ =>
    show GatherDims.start gather_S50001x96_S50000x16x1_S50000x16x96_2_0_n_n_0_2_196 (ix3 n d l) idx 0
      + GatherDims.batchCoord gather_S50001x96_S50000x16x1_S50000x16x96_2_0_n_n_0_2_196 (ix3 n d l) 0
      + GatherDims.offCoord gather_S50001x96_S50000x16x1_S50000x16x96_2_0_n_n_0_2_196 (ix3 n d l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S50001x96_S50000x16x1_S50000x16x96_2_0_n_n_0_2_196).startIndexMap from
      List.mem_singleton.mpr rfl)]
    have hsi : (gather_S50001x96_S50000x16x1_S50000x16x96_2_0_n_n_0_2_196).siIdx (ix3 n d l)
        ⟨List.idxOf (0 : Fin 2) (gather_S50001x96_S50000x16x1_S50000x16x96_2_0_n_n_0_2_196).startIndexMap,
          List.idxOf_lt_length_iff.2 (List.mem_singleton.mpr rfl)⟩ = ix3 n d (0 : Fin 1) := by
      funext b; refine Fin.ext ?_
      match b with
      | ⟨0, _⟩ => rfl
      | ⟨1, _⟩ => rfl
      | ⟨2, _⟩ => rfl
    rw [hsi]
    rfl

/-- The same with the start index named. -/
theorem gather_apply_of {α : Type} (y : S50001x96.Idx → α) (idx : IVec S50000x16x1 32) (n : Fin 50000) (d : Fin 16)
    (l : Fin 96) (w : BitVec 32) (hw : idx (ix3 n d (0 : Fin 1)) = w) :
    Host.gather gather_S50001x96_S50000x16x1_S50000x16x96_2_0_n_n_0_2_196 y idx (ix3 n d l)
      = y (ix2 (⟨min w.toInt.toNat 50000, by omega⟩ : Fin 50001) l) := by
  subst hw
  exact gather_apply y idx n d l

/-! ## The padded difference -/

/-- Row `r`, lane `c · 32 + b` of the padded difference: the difference of the clouds at point `r` when `r < 50000`,
    and zero on the last row. -/
theorem padArr_apply (P G : FVec Ideal S32x50000x3 .f32) (r : Fin 50001) (c : Fin 3) (b : Fin 32) :
    padArr (F := Ideal) P G (ix2 r (lane c b)) = pad (diffK (pts P) (pts G)) b r c := by
  unfold padArr pad
  by_cases h : r.val < 50000
  · rw [dif_pos h]
    rw [concatenate_pair_apply_left (t := S50001x96) (s₁ := S50000x96) (s₂ := S1x96) (0 : Fin 2) _ _
      concatenates_S50000x96_S1x96_S50001x96_d0 (ix2 r (lane c b)) rfl
      (ix2 (⟨r.val, h⟩ : Fin 50000) (lane c b)) (fun b' => by match b' with | ⟨0, _⟩ => rfl | ⟨1, _⟩ => rfl)]
    exact diffArr_apply P G ⟨r.val, h⟩ c b
  · rw [dif_neg h]
    rw [concatenate_pair_apply_right (t := S50001x96) (s₁ := S50000x96) (s₂ := S1x96) (0 : Fin 2) _ _
      concatenates_S50000x96_S1x96_S50001x96_d0 (ix2 r (lane c b)) rfl rfl
      (ix2 (0 : Fin 1) (lane c b))
      (fun b' hb' => by match b', hb' with | ⟨0, _⟩, hb' => exact absurd rfl hb' | ⟨1, _⟩, _ => rfl)
      (by show 0 + 50000 = r.val; have := r.isLt; omega)]
    exact Ideal.ofBits_zero_f32

/-! ## The gathered array -/

/-- Neighbour `d` of point `n`, lane `c · 32 + b`: the padded difference at the row the word names. The mask is on
    because the word is in range, so the fill is never read. -/
theorem takeArr_apply (P G : FVec Ideal S32x50000x3 .f32) (nb : IVec S50000x16 32) (hr : ∀ i, InRange (nb i))
    (n : Fin 50000) (d : Fin 16) (c : Fin 3) (b : Fin 32) :
    takeArr (F := Ideal) P G nb (ix3 n d (lane c b)) = pad (diffK (pts P) (pts G)) b (row (nbr nb n d)) c := by
  unfold takeArr
  rw [select_apply]
  have hm : broadcastInDim S50000x16x96 ![0, 1] bcast_S50000x16_S50000x16x96_0_1 (maskArr nb) (ix3 n d (lane c b)) = 1#1 :=
    maskArr_apply nb hr _
  rw [hm, select_one, gather_apply_of _ _ n d _ _ (startArr_apply nb n d 0)]
  exact padArr_apply P G (row (nbr nb n d)) c b

end Cert.Laplace.Ker

end
-- ==== Proof.KerValue.lean ====
/-
  The kernel program's result is `lossKer` of its arguments, when every neighbour word indexes the padded table.

  The host tail sums the 25 stored blocks over the tiles and then over the batch and divides by 32; block `t` at batch
  `b` is the sum over the tile's 2000 points of the Laplacian's length; the tile's three input blocks are rows
  `2000 t … 2000 t + 1999` of the gathered array, the point-wise array and the degree column, which at an index are the
  padded difference at the neighbour's row, the difference, and the degree.
-/
import proofs.«418512_j23167053595271_2_alg».proof.Proof.KerArray
import proofs.«418512_j23167053595271_2_alg».proof.Proof.KerPayload
import proofs.«418512_j23167053595271_2_alg».proof.Proof.KerHostV
import proofs.«418512_j23167053595271_2_alg».proof.Proof.KerIdxTake
import proofs.«418512_j23167053595271_2_alg».proof.Proof.Spec
import Idealize.ShloMosaic.PureOps.Ideal.Laws
import Idealize.ShloMosaic.Lib.Pipeline.Value

noncomputable section

open scoped BigOperators

namespace Cert.Laplace.Ker

open Idealize.ShloMosaic Idealize.ShloMosaic.TcCoe Idealize.SL.Sem Idealize.ShloMosaic.ValueIdx
open Cert.KernelIdeal Cert.KernelIdeal.Gen Cert.Laplace

/-- The blocks' array with its unit axis dropped, at `(t, b)`. -/
theorem dropUnit_apply (a : Vec Ideal S25x1x32 .f32) (t : Fin 25) (b : Fin 32) :
    shapeCast S25x32 a Facts₀.shapeCasts_S25x1x32_S25x32 (ix2 t b) = a (ix3 t (0 : Fin 1) b) :=
  shapeCast_apply a Facts₀.shapeCasts_S25x1x32_S25x32 (ix2 t b) (ix3 t (0 : Fin 1) b) (by
    rw [Shape.rowMajor_val_three, Shape.rowMajor_val_two]
    show (t.val * 1 + 0) * 32 + b.val = t.val * 32 + b.val
    omega)

/-- The sum over the tiles, at batch `b`. -/
theorem sumTiles_apply (y : FVec Ideal S25x32 .f32) (b : Fin 32) :
    Host.reduceAdd (F := Ideal) y (constant S_ .f32 0x00000000#32) Facts₀.reducesTo_S25x32_S32_d0 Facts₀.h_S_ (ix1 b)
      = ∑ t : Fin 25, y (ix2 t b) := by
  simp only [Host.reduceAdd, Ideal.hostReduceAdd_def]
  rw [Ideal.hostReduceAdd_single Facts₀.reducesTo_S25x32_S32_d0 (by decide)]
  rw [constant_apply, Ideal.ofBits_zero_f32, zero_add]
  refine Finset.sum_congr rfl fun t _ => ?_
  exact congrArg y (funext fun a => Fin.ext (by match a with | ⟨0, _⟩ => rfl | ⟨1, _⟩ => rfl))

/-- The sum over the batch. -/
theorem sumBatch_apply (y : FVec Ideal S32 .f32) (i : S_.Idx) :
    Host.reduceAdd (F := Ideal) y (constant S_ .f32 0x00000000#32) Facts₀.reducesTo_S32_S_d0 Facts₀.h_S_ i
      = ∑ b : Fin 32, y (ix1 b) := by
  simp only [Host.reduceAdd, Ideal.hostReduceAdd_def]
  rw [Ideal.hostReduceAdd_total Facts₀.reducesTo_S32_S_d0 (fun b => b.elim0) y _ i]
  rw [constant_apply, Ideal.ofBits_zero_f32, zero_add]
  exact (Equiv.sum_comp (⟨fun b : Fin 32 => (ix1 b : S32.Idx), fun j => j 0, fun _ => rfl, fun j => (eq_ix1 j).symm⟩ : Fin 32 ≃ S32.Idx) y).symm

/-- The host tail of any array of blocks. -/
theorem tailArr_apply (a : Vec Ideal S25x1x32 .f32) (i : S_.Idx) :
    tailArr (F := Ideal) a i
      = Ideal.div (∑ b : Fin 32, ∑ t : Fin 25, a (ix3 t (0 : Fin 1) b)) (Ideal.ofBits .f32 0x42000000#32) := by
  unfold tailArr
  show FloatOps.hostDivf _ _ = _
  rw [Ideal.hostDivf_def, constant_apply, sumBatch_apply]
  refine congrArg (Ideal.div · _) (Finset.sum_congr rfl fun b _ => ?_)
  rw [sumTiles_apply]
  exact Finset.sum_congr rfl fun t _ => dropUnit_apply a t b

/-- Block `t` of the stored array at batch `b` is the payload of tile `t`. -/
theorem outArr_apply (x5 : Vec Ideal S50000x16x96 .f32) (x2 : Vec Ideal S50000x96 .f32) (x7 : Vec Ideal S50000x1 .f32)
    (t : Fin 25) (b : Fin 32) :
    outArr (F := Ideal) x5 x2 x7 (ix3 t (0 : Fin 1) b) = ∑ r : Fin 2000, tileDist (blk5 (F := Ideal) x5 t) (blk2 (F := Ideal) x2 t) (blk7 (F := Ideal) x7 t) r b :=
  pay_apply (blk5 (F := Ideal) x5 t) (blk2 (F := Ideal) x2 t) (blk7 (F := Ideal) x7 t) b

variable (P G : FVec Ideal S32x50000x3 .f32) (nb : IVec S50000x16 32) (dg : IVec S50000 32)

/-- One entry of a tile's Laplacian, from the arguments. -/
theorem tileLap_args (hr : ∀ i, InRange (nb i)) (t : Fin 25) (r : Fin 2000) (c : Fin 3) (b : Fin 32) :
    tileLap (blk5 (F := Ideal) (takeArr (F := Ideal) P G nb) t) (blk2 (F := Ideal) (diffArr (F := Ideal) P G) t) (blk7 (F := Ideal) (degArr (F := Ideal) dg) t) r c b
      = lapKer (pts P) (pts G) (nbr nb) (degE dg) b (pt t r) c := by
  unfold tileLap lapKer
  have e2 : blk2 (F := Ideal) (diffArr (F := Ideal) P G) t (ix2 r (lane c b)) = diffK (pts P) (pts G) b (pt t r) c :=
    diffArr_apply P G (pt t r) c b
  have e7 : blk7 (F := Ideal) (degArr (F := Ideal) dg) t (ix2 r (0 : Fin 1)) = degE dg (pt t r) := degArr_apply dg (pt t r)
  have e5 : ∀ d : Fin 16, blk5 (F := Ideal) (takeArr (F := Ideal) P G nb) t (ix3 r d (lane c b))
      = pad (diffK (pts P) (pts G)) b (row (nbr nb (pt t r) d)) c := fun d => takeArr_apply P G nb hr (pt t r) d c b
  exact congrArg₂ (· - ·) (congrArg₂ (· * ·) e2 e7) (Finset.sum_congr rfl fun d _ => e5 d)

/-- The tail of the stored blocks' array of the host prefix's three arrays is the kernel's loss. -/
theorem kernel_value (hr : ∀ i, InRange (nb i)) (i : S_.Idx) :
    tailArr (F := Ideal) (outArr (takeArr (F := Ideal) P G nb) (diffArr (F := Ideal) P G) (degArr (F := Ideal) dg)) i
      = lossKer (pts P) (pts G) (nbr nb) (degE dg) := by
  rw [tailArr_apply]
  unfold lossKer
  refine congrArg (Ideal.div · _) (Finset.sum_congr rfl fun b _ => Finset.sum_congr rfl fun t _ => ?_)
  rw [outArr_apply]
  refine Finset.sum_congr rfl fun r _ => ?_
  unfold tileDist distKer
  rw [tileLap_args P G nb dg hr t r 0 b, tileLap_args P G nb dg hr t r 1 b, tileLap_args P G nb dg hr t r 2 b]

end Cert.Laplace.Ker

namespace Cert.Laplace

open Idealize.ShloMosaic Idealize.ShloMosaic.TcCoe Idealize.SL.Sem Idealize.ShloMosaic.ValueIdx
open Cert.KernelIdeal Cert.KernelIdeal.Gen

/-- The kernel program's run with its result named `lossKer` of the arguments. -/
theorem kernel_run (m : (ℓ : Loc nD τ sig) → Buf (Elt Ideal) ℓ) (ρ : Dev nD → PrngReg)
    (hr : ∀ (c : Dev nD) i, InRange (m ((c.tc : Thread nD τ).loc main_arg2) i)) :
    θ_run defs (onTc (τ := τ) (main (F := Ideal))) ⟨m, fun _ => 0, ρ⟩ (fun r => ∀ c : Dev nD,
      r.2.mem ((c.tc : Thread nD τ).loc main_v12)
        = (fun _ => lossKer (pts (m ((c.tc : Thread nD τ).loc main_arg0))) (pts (m ((c.tc : Thread nD τ).loc main_arg1)))
            (nbr (m ((c.tc : Thread nD τ).loc main_arg2))) (degE (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (by
      rw [Ker.V_v5, Ker.V_v2, Ker.V_v7]
      exact funext fun i => Ker.kernel_value _ _ _ _ (hr c) i), (h c).2⟩)
    (Ker.run_named m ρ)

end Cert.Laplace

end
-- ==== Proof.lean ====
/-
  The mean Euclidean length of the difference of two clouds' graph Laplacians, taken two ways.

  The reference pads each cloud with a row of zeros, gathers every point's sixteen neighbour rows, forms each cloud's
  Laplacian `X · degree − Σ neighbours`, subtracts the two, and averages over the batch the sum over points of the
  difference's length. The kernel uses the Laplacian's linearity: it subtracts the clouds first, lays the difference out
  point-major with the three coordinates as three runs of 32 lanes, gathers the neighbour rows of that one array, and a
  pallas_call over 25 tiles of 2000 points forms the Laplacian, its length, and each tile's sum over points; the host
  adds the tiles and averages.

  The kernel's gather masks a neighbour word that does not index the padded table and fills a pattern the extended reals
  read as −∞, where the reference clamps the word; so the two are compared where every word indexes the table of 50001
  rows (counting from either end), which the precondition states beside the clouds' finiteness. There the mask is on
  everywhere, both gathers read the same clamped row, and on real numbers
  `(p − g) · deg − Σ (p − g)[rows] = (p · deg − Σ p[rows]) − (g · deg − Σ g[rows])`; the remaining differences are the
  order of three additions and the grouping of the sum over points into tiles.
-/
import proofs.«418512_j23167053595271_2_alg».proof.Defs
import proofs.«418512_j23167053595271_2_alg».proof.Proof.Gen.Kernel
import proofs.«418512_j23167053595271_2_alg».proof.Proof.Gen.Kernel.Skeleton
import proofs.«418512_j23167053595271_2_alg».proof.Proof.Gen.Kernel.Launch
import proofs.«418512_j23167053595271_2_alg».proof.Proof.Gen.Kernel.Points
import proofs.«418512_j23167053595271_2_alg».proof.Proof.Gen.Kernel.Frame
import proofs.«418512_j23167053595271_2_alg».proof.Proof.Gen.KernelIdeal
import proofs.«418512_j23167053595271_2_alg».proof.Proof.Gen.KernelIdeal.Skeleton
import proofs.«418512_j23167053595271_2_alg».proof.Proof.Gen.KernelIdeal.Launch
import proofs.«418512_j23167053595271_2_alg».proof.Proof.Gen.KernelIdeal.Points
import proofs.«418512_j23167053595271_2_alg».proof.Proof.Gen.KernelIdeal.Frame
import proofs.«418512_j23167053595271_2_alg».proof.Proof.Gen.ReferenceIdeal
import proofs.«418512_j23167053595271_2_alg».proof.Proof.Gen.ReferenceIdeal.Run
import proofs.«418512_j23167053595271_2_alg».proof.Proof.Gen.ReferenceIdeal.Read
import proofs.«418512_j23167053595271_2_alg».proof.Proof.Gen.Pre_finite_inputs
import proofs.«418512_j23167053595271_2_alg».proof.Proof.Spec
import proofs.«418512_j23167053595271_2_alg».proof.Proof.Algebra
import proofs.«418512_j23167053595271_2_alg».proof.Proof.PreDecode
import proofs.«418512_j23167053595271_2_alg».proof.Proof.RefValue
import proofs.«418512_j23167053595271_2_alg».proof.Proof.KerValue
import Idealize.ShloMosaic.Adequacy
import Idealize.ShloMosaic.Init

noncomputable section

namespace Cert.Proof

open Idealize.ShloMosaic Idealize.ShloMosaic.TcCoe Idealize.SL.Sem Idealize.ShloMosaic.ValueIdx Cert.Laplace

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at one number: the kernel's at `lossKer` of the arguments, the reference's at `lossRef` of the
    same arguments, and on finite clouds the two are equal. -/
theorem algebraic : Cert.algebraic_KernelIdeal_ReferenceIdeal := by
  intro m ρ m' ρ' hpre hagree
  have hdec := fun c => pre_decode _ _ _ _ (hpre c)
  refine ⟨fun c _ => lossKer (pts (m ((c.tc : Thread Cert.KernelIdeal.nD Cert.KernelIdeal.τ).loc Cert.KernelIdeal.main_arg0)))
      (pts (m ((c.tc : Thread Cert.KernelIdeal.nD Cert.KernelIdeal.τ).loc Cert.KernelIdeal.main_arg1)))
      (nbr (m ((c.tc : Thread Cert.KernelIdeal.nD Cert.KernelIdeal.τ).loc Cert.KernelIdeal.main_arg2)))
      (degE (m ((c.tc : Thread Cert.KernelIdeal.nD Cert.KernelIdeal.τ).loc Cert.KernelIdeal.main_arg3))),
    kernel_run m ρ (fun c => (hdec c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2]
  funext i
  rw [ref_value]
  exact (lossKer_eq_lossRef _ _ _ (fun n => (((m ((c.tc : Thread Cert.KernelIdeal.nD Cert.KernelIdeal.τ).loc Cert.KernelIdeal.main_arg3)) (ix1 n)).toInt : ℝ))
    (fun b n k => (hdec c).1 (ix3 b n k)) (fun b n k => (hdec c).2.1 (ix3 b n k))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
